-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S128x256 : Shape := ⟨2, ![128, 256]⟩
abbrev S4096x256 : Shape := ⟨2, ![4096, 256]⟩
abbrev S128x1024 : Shape := ⟨2, ![128, 1024]⟩
abbrev S128x4096 : Shape := ⟨2, ![128, 4096]⟩

abbrev nBuf : Space → Nat
  | .hbm => 27
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S4096x1024, .f32⟩
  | .hbm, ⟨26, _⟩ => ⟨S4096x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.select v0 arg1 c3_i32
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c0_i32 : BitVec 32 := 0#32
  let v2 : BitVec 32 := Scalar.select v0 c0_i32 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.select v0 arg1 c3_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S128x1024_S128x1024_0_0 : ∀ a, (![0, 0] : Fin 2 → Nat) a + S128x1024.size a ≤ S128x1024.size a
  h_S128x1024 : 0 < S128x1024.numel
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x1024.size a
  hwx0_0 : ∀ i : grid0.Coords, EltTy.bits .f32 = 32 ∨ (Rect.block (s := S4096x1024) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x1024.size a
  hwx0_1 : ∀ i : grid0.Coords, EltTy.bits .f32 = 32 ∨ (Rect.block (s := S4096x1024) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x1024.size a
  hwx0_2 : ∀ i : grid0.Coords, EltTy.bits .f32 = 32 ∨ (Rect.block (s := S4096x1024) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x1024.size a
  hwx0_3 : ∀ i : grid0.Coords, EltTy.bits .f32 = 32 ∨ (Rect.block (s := S4096x1024) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond4 i == 1#1) | 7 => fun i => !(k0_cond4 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Kit.lean ====
/-
  What the frame of this program's one pipelined region is stated over.  @main is six host operations (four
  concatenations of the gate weights and biases, the sum of the two bias vectors, a reshape) and then the region; the
  region's grid is 32 batch tiles by 8 reduction steps, point `t` being tile `t / 8`, step `t % 8`.  Here: the
  buffers' contents when the region is entered, @main reduced to the region, each window's block at a point, and the
  four conditions the body branches on (step = 0: reset; step < 4: an x-tile; step ≥ 4: an h-tile; step = 7: the
  gate epilogue), decided over the grid.
-/
import proofs.«120958_j68848325755666_1_alg».proof.Proof.Gen.Kernel.Launch
import proofs.«120958_j68848325755666_1_alg».proof.Proof.Gen.Kernel.Skeleton
import proofs.«120958_j68848325755666_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the six host operations. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- Reduction step 0: the accumulator is reset. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- Reduction steps 0 to 3: a tile of the contraction with the input-to-hidden weights. -/
abbrev cond1 (i : grid0.Coords) : Prop := (Scalar.cmpi .ne (Scalar.extui (Scalar.cmpi .slt (BitVec.ofNat 32 (i 1).val) 4#32)) 0#32) = 1#1
theorem hcond1 : ∀ t : Fin cfg0.N, cond1 (grid0.coords t) ↔ t.val % 8 < 4 :=
  (by decide +kernel : ∀ t : Fin grid0.N, cond1 (grid0.coords t) ↔ t.val % 8 < 4)

/-- Reduction steps 4 to 7: a tile of the contraction with the hidden-to-hidden weights. -/
abbrev cond2 (i : grid0.Coords) : Prop := (Scalar.cmpi .ne (Scalar.extui (Scalar.cmpi .sge (BitVec.ofNat 32 (i 1).val) 4#32)) 0#32) = 1#1
theorem hcond2 : ∀ t : Fin cfg0.N, cond2 (grid0.coords t) ↔ 4 ≤ t.val % 8 :=
  (by decide +kernel : ∀ t : Fin grid0.N, cond2 (grid0.coords t) ↔ 4 ≤ t.val % 8)

/-- Reduction step 7: the gates are formed and both results stored. -/
abbrev cond3 (i : grid0.Coords) : Prop := k0_cond4 i = 1#1
theorem hcond3 : ∀ t : Fin cfg0.N, cond3 (grid0.coords t) ↔ t.val % 8 = 7 :=
  (by decide +kernel : ∀ t : Fin grid0.N, cond3 (grid0.coords t) ↔ t.val % 8 = 7)

end Cert.Kernel.Hand

end
-- ==== Proof.K.Runs.lean ====
/-
  The kernel body run once in each of the four cases its branches meet on the grid, on whole staging buffers.  Every
  store of the body writes a whole buffer, so what each buffer holds afterwards is the payload of the last store into
  it, as a function of the blocks the body loaded:
    step 0        the accumulator is reset to zero, then the first x-tile product is added;
    steps 1 to 3  an x-tile product is added to the accumulator the step before left;
    steps 4 to 6  an h-tile product is added;
    step 7        the last h-tile product is added, the summed biases are added to the accumulator, its four column
                  quarters become the input, forget, cell and output gates, and the new cell and hidden blocks are stored.
-/
import proofs.«120958_j68848325755666_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

set_option maxHeartbeats 1000000 in
/-- Step 0: whatever the accumulator held, it ends at `0 + x0 · x2ᵀ`. -/
theorem runA (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : cond0 i) (hc1 : cond1 i) (hc2 : ¬cond2 i) (hc3 : ¬cond3 i)
    (x0 : Vec F S128x256 .f32) (x2 : Vec F S4096x256 .f32)
    (E : Set ℕ) (K : PUnit → sProp 𝕄) :
    iprop(owns (c : Thread nD τ) arg2 fullShare x0 ∗ owns (c : Thread nD τ) arg4 fullShare x2 ∗ (∃ d, owns (c : Thread nD τ) arg10 fullShare d)
        ∗ (iprop(owns (c : Thread nD τ) arg2 fullShare x0 ∗ owns (c : Thread nD τ) arg4 fullShare x2
            ∗ owns (c : Thread nD τ) arg10 fullShare (k0_pay2 x0 x2 (k0_pay1 (F := F)))) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f0, %hf0, H0⟩, ⟨%f2, %hf2, H2⟩, ⟨%ds, %fs, -, HS⟩, Hk⟩
  obtain rfl := harg2.eq_unread hf0; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  rw [View.read_writes_eq_canon _ _ _ (View.cover_of_tiledL _ S128x4096.size (by sl_kernel_rfl))]

  sl_unfold_words
  rw [View.canon_cons_unit_zero (S := S128x4096) hz2]
  simp only [View.readAt_eq_ld, harg2.read_unread, harg4.read_unread, View.readCov_unit_zero (S := S128x4096) _ hz2,
    View.ld_unit_zero (S := S128x256) hz2, View.ld_unit_zero (S := S4096x256) hz2, View.ld_unit_zero (S := S128x4096) hz2]

set_option maxHeartbeats 1000000 in
/-- Steps 1 to 3: the accumulator `xs` ends at `xs + x0 · x2ᵀ`. -/
theorem runB (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : cond1 i) (hc2 : ¬cond2 i) (hc3 : ¬cond3 i)
    (x0 : Vec F S128x256 .f32) (x2 : Vec F S4096x256 .f32) (xs : Vec F S128x4096 .f32)
    (E : Set ℕ) (K : PUnit → sProp 𝕄) :
    iprop(owns (c : Thread nD τ) arg2 fullShare x0 ∗ owns (c : Thread nD τ) arg4 fullShare x2 ∗ owns (c : Thread nD τ) arg10 fullShare xs
        ∗ (iprop(owns (c : Thread nD τ) arg2 fullShare x0 ∗ owns (c : Thread nD τ) arg4 fullShare x2
            ∗ owns (c : Thread nD τ) arg10 fullShare (k0_pay2 x0 x2 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f0, %hf0, H0⟩, ⟨%f2, %hf2, H2⟩, ⟨%fs, %hfs, HS⟩, Hk⟩
  obtain rfl := harg2.eq_unread hf0; obtain rfl := harg4.eq_unread hf2; obtain rfl := harg10.eq_unread hfs
  sl_exec (disch := first | exact hc0 | exact hc1 | exact hc2 | exact hc3)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  rw [View.read_writes_eq_canon _ _ _ (View.cover_of_tiledL _ S128x4096.size (by sl_kernel_rfl))]
  rw [View.canon_unit_zero hz2]
  simp only [View.readAt_eq_ld, harg2.read_unread, harg4.read_unread, harg10.read_unread,
    View.ld_unit_zero (S := S128x256) hz2, View.ld_unit_zero (S := S4096x256) hz2, View.ld_unit_zero (S := S128x4096) hz2]

set_option maxHeartbeats 1000000 in
/-- Steps 4 to 6: the accumulator `xs` ends at `xs + x1 · x3ᵀ`. -/
theorem runC (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : ¬cond1 i) (hc2 : cond2 i) (hc3 : ¬cond3 i)
    (x1 : Vec F S128x256 .f32) (x3 : Vec F S4096x256 .f32) (xs : Vec F S128x4096 .f32)
    (E : Set ℕ) (K : PUnit → sProp 𝕄) :
    iprop(owns (c : Thread nD τ) arg3 fullShare x1 ∗ owns (c : Thread nD τ) arg5 fullShare x3 ∗ owns (c : Thread nD τ) arg10 fullShare xs
        ∗ (iprop(owns (c : Thread nD τ) arg3 fullShare x1 ∗ owns (c : Thread nD τ) arg5 fullShare x3
            ∗ owns (c : Thread nD τ) arg10 fullShare (k0_pay3 x1 x3 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f1, %hf1, H1⟩, ⟨%f3, %hf3, H3⟩, ⟨%fs, %hfs, HS⟩, Hk⟩
  obtain rfl := harg3.eq_unread hf1; obtain rfl := harg5.eq_unread hf3; obtain rfl := harg10.eq_unread hfs
  sl_exec (disch := first | exact hc0 | exact hc1 | exact hc2 | exact hc3)
  sl_step
  iapply Hk
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [View.read_writes_eq_canon _ _ _ (View.cover_of_tiledL _ S128x4096.size (by sl_kernel_rfl))]
  rw [View.canon_unit_zero hz2]
  simp only [View.readAt_eq_ld, harg3.read_unread, harg5.read_unread, harg10.read_unread,
    View.ld_unit_zero (S := S128x256) hz2, View.ld_unit_zero (S := S4096x256) hz2, View.ld_unit_zero (S := S128x4096) hz2]

set_option maxHeartbeats 2000000 in
/-- Step 7: the accumulator `xs` ends at `acc = xs + x1 · x3ᵀ`; with the bias row `x4` and the old cell block `x5`,
    the cell output buffer ends at the body's new-cell payload of `acc`, and the hidden output buffer at its
    new-hidden payload, whatever the two output buffers held. -/
theorem runD (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : ¬cond1 i) (hc2 : cond2 i) (hc3 : cond3 i)
    (x1 : Vec F S128x256 .f32) (x3 : Vec F S4096x256 .f32) (x4 : Vec F S1x4096 .f32) (x5 : Vec F S128x1024 .f32) (xs : Vec F S128x4096 .f32)
    (E : Set ℕ) (K : PUnit → sProp 𝕄) :
    iprop(owns (c : Thread nD τ) arg3 fullShare x1 ∗ owns (c : Thread nD τ) arg5 fullShare x3 ∗ owns (c : Thread nD τ) arg6 fullShare x4
        ∗ owns (c : Thread nD τ) arg7 fullShare x5 ∗ (∃ d, owns (c : Thread nD τ) arg8 fullShare d) ∗ (∃ d, owns (c : Thread nD τ) arg9 fullShare d)
        ∗ owns (c : Thread nD τ) arg10 fullShare xs
        ∗ (iprop(owns (c : Thread nD τ) arg3 fullShare x1 ∗ owns (c : Thread nD τ) arg5 fullShare x3 ∗ owns (c : Thread nD τ) arg6 fullShare x4
            ∗ owns (c : Thread nD τ) arg7 fullShare x5
            ∗ owns (c : Thread nD τ) arg8 fullShare (k0_pay6 (k0_pay3 x1 x3 xs) x4 x5)
            ∗ owns (c : Thread nD τ) arg9 fullShare (k0_pay5 (k0_pay3 x1 x3 xs) x4 x5)
            ∗ owns (c : Thread nD τ) arg10 fullShare (k0_pay3 x1 x3 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f1, %hf1, H1⟩, ⟨%f3, %hf3, H3⟩, ⟨%f4, %hf4, H4⟩, ⟨%f5, %hf5, H5⟩, ⟨%d8, %f8, -, H8⟩, ⟨%d9, %f9, -, H9⟩, ⟨%fs, %hfs, HS⟩, Hk⟩
  obtain rfl := harg3.eq_unread hf1; obtain rfl := harg5.eq_unread hf3; obtain rfl := harg6.eq_unread hf4
  obtain rfl := harg7.eq_unread hf5; obtain rfl := harg10.eq_unread hfs
  sl_exec (disch := first | exact hc0 | exact hc1 | exact hc2 | exact hc3)
  sl_step
  iapply Hk
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hacc : View.readCov (Val := Elt F) arg10.view [(⟨Rect.unit ![0, 0] S128x4096.size inb_S128x4096_S128x4096_0_0,
        k0_pay3 x1 x3 xs⟩ : View.Piece (Elt F) S128x4096 .f32)] (Rect.unit ![0, 0] S128x4096.size inb_S128x4096_S128x4096_0_0).toLoadRect
      = k0_pay3 x1 x3 xs := View.readCov_unit_zero (S := S128x4096) _ hz2 _ _
  isplitl [H8]
  · iexists _; isplitr
    swap; · iexact H8
    ipureintro
    rw [View.read_writes_eq_canon _ _ _ (View.cover_of_tiledL _ S128x1024.size (by sl_kernel_rfl))]

    sl_unfold_words
    rw [View.canon_unit_zero hz2]
    simp only [View.readAt_eq_ld, harg3.read_unread, harg5.read_unread, harg6.read_unread, harg7.read_unread, harg10.read_unread,
      View.readCov_unit_zero (S := S128x4096) _ hz2,
      View.ld_unit_zero (S := S128x256) hz2, View.ld_unit_zero (S := S4096x256) hz2, View.ld_unit_zero (S := S128x4096) hz2,
      View.ld_unit_zero (S := S1x4096) hz2, View.ld_unit_zero (S := S128x1024) hz2]
  isplitl [H9]
  · iexists _; isplitr
    swap; · iexact H9
    ipureintro
    rw [View.read_writes_eq_canon _ _ _ (View.cover_of_tiledL _ S128x1024.size (by sl_kernel_rfl))]
    sl_unfold_words
    rw [View.canon_unit_zero hz2]
    simp only [View.readAt_eq_ld, harg3.read_unread, harg5.read_unread, harg6.read_unread, harg7.read_unread, harg10.read_unread,
      View.readCov_unit_zero (S := S128x4096) _ hz2,
      View.ld_unit_zero (S := S128x256) hz2, View.ld_unit_zero (S := S4096x256) hz2, View.ld_unit_zero (S := S128x4096) hz2,
      View.ld_unit_zero (S := S1x4096) hz2, View.ld_unit_zero (S := S128x1024) hz2]
  iexists _; isplitr
  swap; · iexact HS
  ipureintro
  rw [View.read_writes_eq_canon _ _ _ (View.cover_of_tiledL _ S128x4096.size (by sl_kernel_rfl))]
  sl_unfold_words
  rw [View.canon_unit_zero hz2]
  simp only [View.readAt_eq_ld, harg3.read_unread, harg5.read_unread, harg10.read_unread,
    View.ld_unit_zero (S := S128x256) hz2, View.ld_unit_zero (S := S4096x256) hz2, View.ld_unit_zero (S := S128x4096) hz2]

end Cert.Kernel.Hand

end
-- ==== Proof.K.Frame.lean ====
/-
  The frame of the program: the proof data of its one pipelined region, the body's obligation at every grid point, the
  run, and that every argument array ends as it began.
  The only thing carried from one grid point to the next is the 128 × 4096 accumulator.  After point `t` it holds
  `accAt t`: at a step 0 the first x-tile product over zero; at steps 1 to 3 the x-tile product added to what the point
  before left; at steps 4 to 7 the h-tile product added likewise.  The two result windows are written only at step 7,
  from that accumulator, the bias row and the old cell block; at every other step their staging buffers are handed
  back as found and not written back.  Every input window's staging buffer holds its block of the array at every
  point, fetched there or not.
-/
import proofs.«120958_j68848325755666_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, the scratch, and the blocks at their literal types -/

abbrev ms0 (t : Fin cfg0.N) : Memref sig .tc .vmem S128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1024 .f32 := win0_7.stage (cfg0.slots t 7)
abbrev hs7 (t : Fin cfg0.N) : (ms7 t).IsWhole := hstage0_7 ((cfg0.slots t 7).cast nbuf0_7)
/-- The accumulator: a whole scoped buffer of the kernel's own. -/
abbrev scM : Memref sig .tc .vmem S128x4096 .f32 := Memref.whole cc0_scratch0

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The x block, the h block, the two weight blocks, the bias row and the old cell block at point `t`. -/
abbrev xblk (c : Dev nD) (t : Fin cfg0.N) : Vec F S128x256 .f32 := iblk m c 0 t
abbrev hblk (c : Dev nD) (t : Fin cfg0.N) : Vec F S128x256 .f32 := iblk m c 1 t
abbrev wblk (c : Dev nD) (t : Fin cfg0.N) : Vec F S4096x256 .f32 := iblk m c 2 t
abbrev ublk (c : Dev nD) (t : Fin cfg0.N) : Vec F S4096x256 .f32 := iblk m c 3 t
abbrev bblk (c : Dev nD) (t : Fin cfg0.N) : Vec F S1x4096 .f32 := iblk m c 4 t
abbrev cblk (c : Dev nD) (t : Fin cfg0.N) : Vec F S128x1024 .f32 := iblk m c 5 t

/-! ## The accumulator after each point -/

/-- What the accumulator holds after the body at position `n`. -/
def accAt (c : Dev nD) : (n : ℕ) → n < cfg0.N → Vec F S128x4096 .f32
  | 0, hn => k0_pay2 (xblk m c ⟨0, hn⟩) (wblk m c ⟨0, hn⟩) (k0_pay1 (F := F))
  | n + 1, hn =>
    if (n + 1) % 8 = 0 then k0_pay2 (xblk m c ⟨n + 1, hn⟩) (wblk m c ⟨n + 1, hn⟩) (k0_pay1 (F := F))
    else if (n + 1) % 8 < 4 then k0_pay2 (xblk m c ⟨n + 1, hn⟩) (wblk m c ⟨n + 1, hn⟩) (accAt c n (Nat.lt_of_succ_lt hn))
    else k0_pay3 (hblk m c ⟨n + 1, hn⟩) (ublk m c ⟨n + 1, hn⟩) (accAt c n (Nat.lt_of_succ_lt hn))

theorem accAt_A (c : Dev nD) (t : Fin cfg0.N) (h0 : t.val % 8 = 0) :
    accAt m c t.val t.isLt = k0_pay2 (xblk m c t) (wblk m c t) (k0_pay1 (F := F)) := by
  obtain ⟨n, hn⟩ := t
  cases n with
  | zero => rfl
  | succ n => exact if_pos h0

theorem accAt_B (c : Dev nD) (t : Fin cfg0.N) (h0 : ¬t.val % 8 = 0) (h1 : t.val % 8 < 4) :
    accAt m c t.val t.isLt = k0_pay2 (xblk m c t) (wblk m c t) (accAt m c (t.val - 1) (Nat.lt_of_le_of_lt (Nat.sub_le _ _) t.isLt)) := by
  obtain ⟨n, hn⟩ := t
  cases n with
  | zero => exact absurd (Nat.zero_mod _) h0
  | succ n => exact (if_neg h0).trans ((if_pos h1).trans rfl)

theorem accAt_C (c : Dev nD) (t : Fin cfg0.N) (h0 : ¬t.val % 8 = 0) (h1 : ¬t.val % 8 < 4) :
    accAt m c t.val t.isLt = k0_pay3 (hblk m c t) (ublk m c t) (accAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- The new hidden block and the new cell block the body forms from the accumulator at point `t` (stored at a step 7). -/
def hOut (c : Dev nD) (t : Fin cfg0.N) : Vec F S128x1024 .f32 := k0_pay6 (accAt m c t.val t.isLt) (bblk m c t) (cblk m c t)
def cOut (c : Dev nD) (t : Fin cfg0.N) : Vec F S128x1024 .f32 := k0_pay5 (accAt m c t.val t.isLt) (bblk m c t) (cblk m c t)

/-- The region invariant before position `n`: before the first point the accumulator at anything; afterwards at what
    the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body at point `t` each input's buffer at its block and the two
    results' at the blocks formed from the accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut m c t
    | ⟨7, _⟩ => cOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut m c t := by dsimp only [dats]
theorem after7 (c : Dev nD) (t : Fin cfg0.N) : (dats m 0 c).after 7 t = cOut m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, ¬t.val % 8 = 7 → cfg0.idle 6 (grid0.coords t) = true := by decide +kernel
theorem idle7 : ∀ t : Fin cfg0.N, ¬t.val % 8 = 7 → cfg0.idle 7 (grid0.coords t) = true := by decide +kernel
theorem noFlush6 : ∀ t : Fin cfg0.N, ¬t.val % 8 = 7 → (cfg0.win 6).flush t = false := by decide +kernel
theorem noFlush7 : ∀ t : Fin cfg0.N, ¬t.val % 8 = 7 → (cfg0.win 7).flush t = false := by decide +kernel
theorem live6 : ∀ t : Fin cfg0.N, t.val % 8 = 7 → cfg0.idle 6 (grid0.coords t) = false := by decide +kernel
theorem live7 : ∀ t : Fin cfg0.N, t.val % 8 = 7 → cfg0.idle 7 (grid0.coords t) = false := by decide +kernel

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]
theorem leaves5 (c : Dev nD) (t : Fin cfg0.N) :
    (dats m 0 c).leavesExact 5 t = owns (c : Thread nD τ) (ms5 t) fullShare (iblk m c 5 t) := by
  unfold Dat.leavesExact; rw [live5 t, after5]
theorem leaves6_live (c : Dev nD) (t : Fin cfg0.N) (h : t.val % 8 = 7) :
    (dats m 0 c).leavesExact 6 t = owns (c : Thread nD τ) (ms6 t) fullShare (hOut m c t) := by
  unfold Dat.leavesExact; rw [live6 t h, after6]
theorem leaves7_live (c : Dev nD) (t : Fin cfg0.N) (h : t.val % 8 = 7) :
    (dats m 0 c).leavesExact 7 t = owns (c : Thread nD τ) (ms7 t) fullShare (cOut m c t) := by
  unfold Dat.leavesExact; rw [live7 t h, after7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
/-- The body at any point: the step `t % 8` says which case the point is in; the inputs' buffers hold their blocks; the
    invariant hands the body the accumulator at what the point before left (at anything at the very first point, and
    a step 0 never reads it) and takes it back at this point's contents; the result buffers are handed back as found
    except at a step 7, which stores both. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 256 := lt_of_lt_of_eq t.isLt (show cfg0.N = 256 from N_0)
  by_cases h0 : t.val % 8 = 0
  · have h7 : ¬t.val % 8 = 7 := by omega
    rw [Dat.leavesExact_idle (dats m 0 c) 6 t (idle6 t h7) (noFlush6 t h7), Dat.leavesExact_idle (dats m 0 c) 7 t (idle7 t h7) (noFlush7 t h7)]
    rw [accAt_A m c t h0]
    have hc0 : cond0 (grid0.coords t) := (hcond0 t).mpr h0
    have hc1 : cond1 (grid0.coords t) := (hcond1 t).mpr (by omega)
    have hc2 : ¬cond2 (grid0.coords t) := fun h => absurd ((hcond2 t).mp h) (by omega)
    have hc3 : ¬cond3 (grid0.coords t) := fun h => h7 ((hcond3 t).mp h)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runA c (grid0.coords t) _ _ _ _ _ _ _ _ _ _ _ _ _ _ _ _ _ _ hc0 hc1 hc2 hc3 (xblk m c t) (wblk m c t) Set.univ _)
      isplitl [H0]; · iexact H0
      isplitl [H2]; · iexact H2
      isplitl [HS]; · iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runA c (grid0.coords t) _ _ _ _ _ _ _ _ _ _ _ _ _ _ _ _ _ _ hc0 hc1 hc2 hc3 (xblk m c t) (wblk m c t) Set.univ _)
      isplitl [H0]; · iexact H0
      isplitl [H2]; · iexact H2
      isplitl [HS]; · iexists _; iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    have hc0 : ¬cond0 (grid0.coords t) := fun h => h0 ((hcond0 t).mp h)
    rw [PhiS_castSucc m c t, PhiS_pos m c _ _ hz]
    by_cases h1 : t.val % 8 < 4
    · have h7 : ¬t.val % 8 = 7 := by omega
      rw [Dat.leavesExact_idle (dats m 0 c) 6 t (idle6 t h7) (noFlush6 t h7), Dat.leavesExact_idle (dats m 0 c) 7 t (idle7 t h7) (noFlush7 t h7)]
      rw [accAt_B m c t h0 h1]
      have hc1 : cond1 (grid0.coords t) := (hcond1 t).mpr h1
      have hc2 : ¬cond2 (grid0.coords t) := fun h => absurd ((hcond2 t).mp h) (by omega)
      have hc3 : ¬cond3 (grid0.coords t) := fun h => h7 ((hcond3 t).mp h)
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runB c (grid0.coords t) _ _ _ _ _ _ _ _ _ _ _ _ _ _ _ _ _ _ hc0 hc1 hc2 hc3 (xblk m c t) (wblk m c t) _ Set.univ _)
      isplitl [H0]; · iexact H0
      isplitl [H2]; · iexact H2
      isplitl [HS]; · iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1 (grid0.coords t) := fun h => h1 ((hcond1 t).mp h)
      have hc2 : cond2 (grid0.coords t) := (hcond2 t).mpr (by omega)
      rw [accAt_C m c t h0 h1]
      by_cases h7 : t.val % 8 = 7
      · have hc3 : cond3 (grid0.coords t) := (hcond3 t).mpr h7
        rw [leaves6_live m c t h7, leaves7_live m c t h7]
        unfold hOut cOut
        rw [accAt_C m c t h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runD c (grid0.coords t) _ _ _ _ _ _ _ _ _ _ _ _ _ _ _ _ _ _ hc0 hc1 hc2 hc3 (hblk m c t) (ublk m c t) (bblk m c t) (cblk m c t) _ Set.univ _)
        isplitl [H1]; · iexact H1
        isplitl [H3]; · iexact H3
        isplitl [H4]; · iexact H4
        isplitl [H5]; · iexact H5
        isplitl [H6]; · iexists _; iexact H6
        isplitl [H7]; · iexists _; iexact H7
        isplitl [HS]; · iexact HS
        iintro ⟨H1, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · have hc3 : ¬cond3 (grid0.coords t) := fun h => h7 ((hcond3 t).mp h)
        rw [Dat.leavesExact_idle (dats m 0 c) 6 t (idle6 t h7) (noFlush6 t h7), Dat.leavesExact_idle (dats m 0 c) 7 t (idle7 t h7) (noFlush7 t h7)]
        iintro ⟨⟨HS, Hg⟩, Ho, ⟨%d0, H0⟩, ⟨%d1, H1⟩, ⟨%d2, H2⟩, ⟨%d3, H3⟩, ⟨%d4, H4⟩, ⟨%d5, H5⟩, H6, H7⟩
        iapply (runC c (grid0.coords t) _ _ _ _ _ _ _ _ _ _ _ _ _ _ _ _ _ _ hc0 hc1 hc2 hc3 (hblk m c t) (ublk m c t) _ Set.univ _)
        isplitl [H1]; · iexact H1
        isplitl [H3]; · iexact H3
        isplitl [HS]; · iexact HS
        iintro ⟨H1, H3, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- Every weakly fair execution of @main terminates, and in every final state every array of the pipeline holds what
    the library computes from the proof data and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The host operations write only their own results: every argument array is as launched when the region is entered. -/
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results
theorem V_arg6 (c : Dev nD) : V m c main_arg6 = m ((c : Thread nD τ).loc main_arg6) := by
  show StableHlo.after hostOps0 (fun b => m (c, b)) (Proc.devRef .tc main_arg6) = _
  after_results
theorem V_arg7 (c : Dev nD) : V m c main_arg7 = m ((c : Thread nD τ).loc main_arg7) := by
  show StableHlo.after hostOps0 (fun b => m (c, b)) (Proc.devRef .tc main_arg7) = _
  after_results
theorem V_arg8 (c : Dev nD) : V m c main_arg8 = m ((c : Thread nD τ).loc main_arg8) := by
  show StableHlo.after hostOps0 (fun b => m (c, b)) (Proc.devRef .tc main_arg8) = _
  after_results
theorem V_arg9 (c : Dev nD) : V m c main_arg9 = m ((c : Thread nD τ).loc main_arg9) := by
  show StableHlo.after hostOps0 (fun b => m (c, b)) (Proc.devRef .tc main_arg9) = _
  after_results
theorem V_arg10 (c : Dev nD) : V m c main_arg10 = m ((c : Thread nD τ).loc main_arg10) := by
  show StableHlo.after hostOps0 (fun b => m (c, b)) (Proc.devRef .tc main_arg10) = _
  after_results
theorem V_arg11 (c : Dev nD) : V m c main_arg11 = m ((c : Thread nD τ).loc main_arg11) := by
  show StableHlo.after hostOps0 (fun b => m (c, b)) (Proc.devRef .tc main_arg11) = _
  after_results
theorem V_arg12 (c : Dev nD) : V m c main_arg12 = m ((c : Thread nD τ).loc main_arg12) := by
  show StableHlo.after hostOps0 (fun b => m (c, b)) (Proc.devRef .tc main_arg12) = _
  after_results
theorem V_arg13 (c : Dev nD) : V m c main_arg13 = m ((c : Thread nD τ).loc main_arg13) := by
  show StableHlo.after hostOps0 (fun b => m (c, b)) (Proc.devRef .tc main_arg13) = _
  after_results
theorem V_arg14 (c : Dev nD) : V m c main_arg14 = m ((c : Thread nD τ).loc main_arg14) := by
  show StableHlo.after hostOps0 (fun b => m (c, b)) (Proc.devRef .tc main_arg14) = _
  after_results
theorem V_arg15 (c : Dev nD) : V m c main_arg15 = m ((c : Thread nD τ).loc main_arg15) := by
  show StableHlo.after hostOps0 (fun b => m (c, b)) (Proc.devRef .tc main_arg15) = _
  after_results
theorem V_arg16 (c : Dev nD) : V m c main_arg16 = m ((c : Thread nD τ).loc main_arg16) := by
  show StableHlo.after hostOps0 (fun b => m (c, b)) (Proc.devRef .tc main_arg16) = _
  after_results
theorem V_arg17 (c : Dev nD) : V m c main_arg17 = m ((c : Thread nD τ).loc main_arg17) := by
  show StableHlo.after hostOps0 (fun b => m (c, b)) (Proc.devRef .tc main_arg17) = _
  after_results
theorem V_arg18 (c : Dev nD) : V m c main_arg18 = m ((c : Thread nD τ).loc main_arg18) := by
  show StableHlo.after hostOps0 (fun b => m (c, b)) (Proc.devRef .tc main_arg18) = _
  after_results

/-- Every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    ((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 5).trans (((dats m 0 c).arrAt_in 5 rfl _).trans ((A_eq m c 5).trans (V_arg2 m c))),
    ((h c).2 main_arg3 (by decide)).trans (V_arg3 m c),
    ((h c).2 main_arg4 (by decide)).trans (V_arg4 m c),
    ((h c).2 main_arg5 (by decide)).trans (V_arg5 m c),
    ((h c).2 main_arg6 (by decide)).trans (V_arg6 m c),
    ((h c).2 main_arg7 (by decide)).trans (V_arg7 m c),
    ((h c).2 main_arg8 (by decide)).trans (V_arg8 m c),
    ((h c).2 main_arg9 (by decide)).trans (V_arg9 m c),
    ((h c).2 main_arg10 (by decide)).trans (V_arg10 m c),
    ((h c).2 main_arg11 (by decide)).trans (V_arg11 m c),
    ((h c).2 main_arg12 (by decide)).trans (V_arg12 m c),
    ((h c).2 main_arg13 (by decide)).trans (V_arg13 m c),
    ((h c).2 main_arg14 (by decide)).trans (V_arg14 m c),
    ((h c).2 main_arg15 (by decide)).trans (V_arg15 m c),
    ((h c).2 main_arg16 (by decide)).trans (V_arg16 m c),
    ((h c).2 main_arg17 (by decide)).trans (V_arg17 m c),
    ((h c).2 main_arg18 (by decide)).trans (V_arg18 m c)⟩) (run_main m ρ)

end Cert.Kernel.Hand

end
-- ==== Proof.KI.Payloads.lean ====
/-
  The kernel body's arithmetic read at an index, on the extended reals.  The body's six stored values are pure terms of
  the blocks it loads; here each is read at one entry:
    the reset value is zero;
    a tile step adds to the accumulator's entry `(p, n)` the product of row `p` of the left block with row `n` of the
      weight block, summed over the tile's 256 features (a change of float format is the identity, and the matrix
      unit's own accumulator starts at zero);
    the gate input at `(p, n)` is the accumulator's entry plus entry `n` of the bias row;
    the new cell entry at `(p, j)` is  σ(gate input at column 1024 + j) · old cell  +  σ(column j) · tanh(column 2048 + j);
    the new hidden entry is  σ(column 3072 + j) · tanh(new cell entry).
-/
import proofs.«120958_j68848325755666_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal Cert.KernelIdeal.Gen
open scoped BigOperators

/-- The reset value. -/
theorem pay1_apply (i : S128x4096.Idx) : k0_pay1 (F := Ideal) i = 0 := by
  unfold k0_pay1
  rw [shapeCast_self, broadcast_apply]
  exact Ideal.ofBits_zero_f32

/-- On the left block a product's row is the result's row … -/
theorem lhs_tile_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide),
    dif_pos (show (0 : Fin S128x256.rank) ∈ dot_S128x256_S4096x256_S128x4096_1_1_0_0_n_n.lhsNonContracting by decide)]
  rfl
/-- … and its feature is the summation position. -/
theorem lhs_tile_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
/-- On the weight block a product's row is the result's column … -/
theorem rhs_tile_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide),
    dif_pos (show (0 : Fin S4096x256.rank) ∈ dot_S128x256_S4096x256_S128x4096_1_1_0_0_n_n.rhsNonContracting by decide)]
  rfl
/-- … and its feature is the summation position. -/
theorem rhs_tile_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- The matrix unit's product of a left block with a weight block, started from zero, read at `(p, n)`: row `p` of the left
    block times row `n` of the weight block, summed over the 256 features. -/
theorem tile_product_apply (a : FVec Ideal S128x256 .bf16) (b : FVec Ideal S4096x256 .bf16) (p : Fin 128) (n : Fin 4096) :
    matmul dot_S128x256_S4096x256_S128x4096_1_1_0_0_n_n none a b (constant (F := Ideal) S128x4096 .f32 0x00000000#32) (ix2 p n)
      = ∑ d : Fin 256, a (ix2 p d) * b (ix2 n d) := by
  simp only [matmul]
  rw [Ideal.matmul_constant_zero_apply, ← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 p n) ((contrEquiv1 dot_S128x256_S4096x256_S128x4096_1_1_0_0_n_n 256 rfl rfl).symm k) = ix2 p k := funext fun a => Fin.ext (by
    match a with
    | ⟨0, _⟩ => exact lhs_tile_0 _ _
    | ⟨1, _⟩ => exact (lhs_tile_1 _ _).trans hk)
  have er : dot_S128x256_S4096x256_S128x4096_1_1_0_0_n_n.rhsIdx (ix2 p n) ((contrEquiv1 dot_S128x256_S4096x256_S128x4096_1_1_0_0_n_n 256 rfl rfl).symm k) = ix2 n k := funext fun a => Fin.ext (by
    match a with
    | ⟨0, _⟩ => exact rhs_tile_0 _ _
    | ⟨1, _⟩ => exact (rhs_tile_1 _ _).trans hk)
  rw [el, er]

/-- An x-tile step. -/
theorem pay2_apply (x : Vec Ideal S128x256 .f32) (w : Vec Ideal S4096x256 .f32) (acc : Vec Ideal S128x4096 .f32)
    (p : Fin 128) (n : Fin 4096) :
    k0_pay2 (F := Ideal) x w acc (ix2 p n) = acc (ix2 p n) + ∑ d : Fin 256, x (ix2 p d) * w (ix2 n d) := by
  unfold k0_pay2
  rw [shapeCast_self, shapeCast_self, addf_apply, tile_product_apply]
  rfl

/-- An h-tile step. -/
theorem pay3_apply (x : Vec Ideal S128x256 .f32) (w : Vec Ideal S4096x256 .f32) (acc : Vec Ideal S128x4096 .f32)
    (p : Fin 128) (n : Fin 4096) :
    k0_pay3 (F := Ideal) x w acc (ix2 p n) = acc (ix2 p n) + ∑ d : Fin 256, x (ix2 p d) * w (ix2 n d) := by
  unfold k0_pay3
  rw [shapeCast_self, shapeCast_self, addf_apply, tile_product_apply]
  rfl

/-- The gate input: the accumulator plus the broadcast bias row. -/
theorem pay4_apply (acc : Vec Ideal S128x4096 .f32) (b : Vec Ideal S1x4096 .f32) (p : Fin 128) (n : Fin 4096) :
    k0_pay4 (F := Ideal) acc b (ix2 p n) = acc (ix2 p n) + b (ix2 (0 : Fin 1) n) := by
  unfold k0_pay4
  rw [shapeCast_self, addf_apply]
  refine congrArg (acc (ix2 p n) + ·) ?_
  exact broadcastTo_apply b broadcasts_S1x4096_S128x4096 (ix2 p n) (ix2 (0 : Fin 1) n)
    (fun a => match a with | ⟨0, _⟩ => rfl | ⟨1, _⟩ => rfl)

/-- A 1024-column quarter of a 128 × 4096 value read at `(p, j)` is the value at `(p, off + j)`. -/
theorem quarter_apply (off : Nat) (h : S128x4096.Slices ![0, off] S128x1024) (v : FVec Ideal S128x4096 .f32)
    (p : Fin 128) (j : Fin 1024) (c : Fin 4096) (hc : c.val = off + j.val) :
    extractStridedSlice S128x1024 ![0, off] v h (ix2 p j) = v (ix2 p c) :=
  extractStridedSlice_apply _ v h (ix2 p j) (ix2 p c) (fun a => match a with
    | ⟨0, _⟩ => (Nat.zero_add _).symm
    | ⟨1, _⟩ => hc)

/-- The new cell entry. -/
theorem pay5_apply (acc : Vec Ideal S128x4096 .f32) (b : Vec Ideal S1x4096 .f32) (cb : Vec Ideal S128x1024 .f32)
    (p : Fin 128) (j : Fin 1024) :
    k0_pay5 (F := Ideal) acc b cb (ix2 p j)
      = Ideal.logistic (k0_pay4 (F := Ideal) acc b (ix2 p (⟨1024 + j.val, by have := j.isLt; omega⟩ : Fin 4096))) * cb (ix2 p j)
        + Ideal.logistic (k0_pay4 (F := Ideal) acc b (ix2 p (⟨j.val, by have := j.isLt; omega⟩ : Fin 4096)))
          * Ideal.tanh (k0_pay4 (F := Ideal) acc b (ix2 p (⟨2048 + j.val, by have := j.isLt; omega⟩ : Fin 4096))) := by
  unfold k0_pay5
  rw [addf_apply, mulf_apply, mulf_apply]
  show Ideal.logistic (extractStridedSlice S128x1024 ![0, 1024] (k0_pay4 (F := Ideal) acc b) slices_S128x4096_o0_1024_S128x1024 (ix2 p j)) * cb (ix2 p j)
      + Ideal.logistic (extractStridedSlice S128x1024 ![0, 0] (k0_pay4 (F := Ideal) acc b) slices_S128x4096_o0_0_S128x1024 (ix2 p j))
        * Ideal.tanh (extractStridedSlice S128x1024 ![0, 2048] (k0_pay4 (F := Ideal) acc b) slices_S128x4096_o0_2048_S128x1024 (ix2 p j)) = _
  rw [quarter_apply 1024 _ _ p j ⟨1024 + j.val, by have := j.isLt; omega⟩ rfl,
    quarter_apply 0 _ _ p j ⟨j.val, by have := j.isLt; omega⟩ (Nat.zero_add _).symm,
    quarter_apply 2048 _ _ p j ⟨2048 + j.val, by have := j.isLt; omega⟩ rfl]

/-- The new hidden entry. -/
theorem pay6_apply (acc : Vec Ideal S128x4096 .f32) (b : Vec Ideal S1x4096 .f32) (cb : Vec Ideal S128x1024 .f32)
    (p : Fin 128) (j : Fin 1024) :
    k0_pay6 (F := Ideal) acc b cb (ix2 p j)
      = Ideal.logistic (k0_pay4 (F := Ideal) acc b (ix2 p (⟨3072 + j.val, by have := j.isLt; omega⟩ : Fin 4096)))
        * Ideal.tanh (k0_pay5 (F := Ideal) acc b cb (ix2 p j)) := by
  unfold k0_pay6
  rw [mulf_apply]
  show Ideal.logistic (extractStridedSlice S128x1024 ![0, 3072] (k0_pay4 (F := Ideal) acc b) slices_S128x4096_o0_3072_S128x1024 (ix2 p j))
      * Ideal.tanh (k0_pay5 (F := Ideal) acc b cb (ix2 p j)) = _
  rw [quarter_apply 3072 _ _ p j ⟨3072 + j.val, by have := j.isLt; omega⟩ rfl]

end Cert.KernelIdeal.Hand

end
-- ==== Proof.KI.Kit.lean ====
/-
  What the frame of this program's one pipelined region is stated over.  @main is six host operations (four
  concatenations of the gate weights and biases, the sum of the two bias vectors, a reshape) and then the region; the
  region's grid is 32 batch tiles by 8 reduction steps, point `t` being tile `t / 8`, step `t % 8`.  Here: the
  buffers' contents when the region is entered, @main reduced to the region, each window's block at a point, and the
  four conditions the body branches on (step = 0: reset; step < 4: an x-tile; step ≥ 4: an h-tile; step = 7: the
  gate epilogue), decided over the grid.
-/
import proofs.«120958_j68848325755666_1_alg».proof.Proof.Gen.KernelIdeal.Launch
import proofs.«120958_j68848325755666_1_alg».proof.Proof.Gen.KernelIdeal.Skeleton
import proofs.«120958_j68848325755666_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the six host operations. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- Reduction step 0: the accumulator is reset. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- Reduction steps 0 to 3: a tile of the contraction with the input-to-hidden weights. -/
abbrev cond1 (i : grid0.Coords) : Prop := (Scalar.cmpi .ne (Scalar.extui (Scalar.cmpi .slt (BitVec.ofNat 32 (i 1).val) 4#32)) 0#32) = 1#1
theorem hcond1 : ∀ t : Fin cfg0.N, cond1 (grid0.coords t) ↔ t.val % 8 < 4 :=
  (by decide +kernel : ∀ t : Fin grid0.N, cond1 (grid0.coords t) ↔ t.val % 8 < 4)

/-- Reduction steps 4 to 7: a tile of the contraction with the hidden-to-hidden weights. -/
abbrev cond2 (i : grid0.Coords) : Prop := (Scalar.cmpi .ne (Scalar.extui (Scalar.cmpi .sge (BitVec.ofNat 32 (i 1).val) 4#32)) 0#32) = 1#1
theorem hcond2 : ∀ t : Fin cfg0.N, cond2 (grid0.coords t) ↔ 4 ≤ t.val % 8 :=
  (by decide +kernel : ∀ t : Fin grid0.N, cond2 (grid0.coords t) ↔ 4 ≤ t.val % 8)

/-- Reduction step 7: the gates are formed and both results stored. -/
abbrev cond3 (i : grid0.Coords) : Prop := k0_cond4 i = 1#1
theorem hcond3 : ∀ t : Fin cfg0.N, cond3 (grid0.coords t) ↔ t.val % 8 = 7 :=
  (by decide +kernel : ∀ t : Fin grid0.N, cond3 (grid0.coords t) ↔ t.val % 8 = 7)

end Cert.KernelIdeal.Hand

end
-- ==== Proof.KI.Runs.lean ====
/-
  The kernel body run once in each of the four cases its branches meet on the grid, on whole staging buffers.  Every
  store of the body writes a whole buffer, so what each buffer holds afterwards is the payload of the last store into
  it, as a function of the blocks the body loaded:
    step 0        the accumulator is reset to zero, then the first x-tile product is added;
    steps 1 to 3  an x-tile product is added to the accumulator the step before left;
    steps 4 to 6  an h-tile product is added;
    step 7        the last h-tile product is added, the summed biases are added to the accumulator, its four column
                  quarters become the input, forget, cell and output gates, and the new cell and hidden blocks are stored.
-/
import proofs.«120958_j68848325755666_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

set_option maxHeartbeats 1000000 in
/-- Step 0: whatever the accumulator held, it ends at `0 + x0 · x2ᵀ`. -/
theorem runA (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : cond0 i) (hc1 : cond1 i) (hc2 : ¬cond2 i) (hc3 : ¬cond3 i)
    (x0 : Vec F S128x256 .f32) (x2 : Vec F S4096x256 .f32)
    (E : Set ℕ) (K : PUnit → sProp 𝕄) :
    iprop(owns (c : Thread nD τ) arg2 fullShare x0 ∗ owns (c : Thread nD τ) arg4 fullShare x2 ∗ (∃ d, owns (c : Thread nD τ) arg10 fullShare d)
        ∗ (iprop(owns (c : Thread nD τ) arg2 fullShare x0 ∗ owns (c : Thread nD τ) arg4 fullShare x2
            ∗ owns (c : Thread nD τ) arg10 fullShare (k0_pay2 x0 x2 (k0_pay1 (F := F)))) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f0, %hf0, H0⟩, ⟨%f2, %hf2, H2⟩, ⟨%ds, %fs, -, HS⟩, Hk⟩
  obtain rfl := harg2.eq_unread hf0; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  rw [View.read_writes_eq_canon _ _ _ (View.cover_of_tiledL _ S128x4096.size (by sl_kernel_rfl))]

  sl_unfold_words
  rw [View.canon_cons_unit_zero (S := S128x4096) hz2]
  simp only [View.readAt_eq_ld, harg2.read_unread, harg4.read_unread, View.readCov_unit_zero (S := S128x4096) _ hz2,
    View.ld_unit_zero (S := S128x256) hz2, View.ld_unit_zero (S := S4096x256) hz2, View.ld_unit_zero (S := S128x4096) hz2]

set_option maxHeartbeats 1000000 in
/-- Steps 1 to 3: the accumulator `xs` ends at `xs + x0 · x2ᵀ`. -/
theorem runB (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : cond1 i) (hc2 : ¬cond2 i) (hc3 : ¬cond3 i)
    (x0 : Vec F S128x256 .f32) (x2 : Vec F S4096x256 .f32) (xs : Vec F S128x4096 .f32)
    (E : Set ℕ) (K : PUnit → sProp 𝕄) :
    iprop(owns (c : Thread nD τ) arg2 fullShare x0 ∗ owns (c : Thread nD τ) arg4 fullShare x2 ∗ owns (c : Thread nD τ) arg10 fullShare xs
        ∗ (iprop(owns (c : Thread nD τ) arg2 fullShare x0 ∗ owns (c : Thread nD τ) arg4 fullShare x2
            ∗ owns (c : Thread nD τ) arg10 fullShare (k0_pay2 x0 x2 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f0, %hf0, H0⟩, ⟨%f2, %hf2, H2⟩, ⟨%fs, %hfs, HS⟩, Hk⟩
  obtain rfl := harg2.eq_unread hf0; obtain rfl := harg4.eq_unread hf2; obtain rfl := harg10.eq_unread hfs
  sl_exec (disch := first | exact hc0 | exact hc1 | exact hc2 | exact hc3)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  rw [View.read_writes_eq_canon _ _ _ (View.cover_of_tiledL _ S128x4096.size (by sl_kernel_rfl))]
  rw [View.canon_unit_zero hz2]
  simp only [View.readAt_eq_ld, harg2.read_unread, harg4.read_unread, harg10.read_unread,
    View.ld_unit_zero (S := S128x256) hz2, View.ld_unit_zero (S := S4096x256) hz2, View.ld_unit_zero (S := S128x4096) hz2]

set_option maxHeartbeats 1000000 in
/-- Steps 4 to 6: the accumulator `xs` ends at `xs + x1 · x3ᵀ`. -/
theorem runC (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : ¬cond1 i) (hc2 : cond2 i) (hc3 : ¬cond3 i)
    (x1 : Vec F S128x256 .f32) (x3 : Vec F S4096x256 .f32) (xs : Vec F S128x4096 .f32)
    (E : Set ℕ) (K : PUnit → sProp 𝕄) :
    iprop(owns (c : Thread nD τ) arg3 fullShare x1 ∗ owns (c : Thread nD τ) arg5 fullShare x3 ∗ owns (c : Thread nD τ) arg10 fullShare xs
        ∗ (iprop(owns (c : Thread nD τ) arg3 fullShare x1 ∗ owns (c : Thread nD τ) arg5 fullShare x3
            ∗ owns (c : Thread nD τ) arg10 fullShare (k0_pay3 x1 x3 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f1, %hf1, H1⟩, ⟨%f3, %hf3, H3⟩, ⟨%fs, %hfs, HS⟩, Hk⟩
  obtain rfl := harg3.eq_unread hf1; obtain rfl := harg5.eq_unread hf3; obtain rfl := harg10.eq_unread hfs
  sl_exec (disch := first | exact hc0 | exact hc1 | exact hc2 | exact hc3)
  sl_step
  iapply Hk
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [View.read_writes_eq_canon _ _ _ (View.cover_of_tiledL _ S128x4096.size (by sl_kernel_rfl))]
  rw [View.canon_unit_zero hz2]
  simp only [View.readAt_eq_ld, harg3.read_unread, harg5.read_unread, harg10.read_unread,
    View.ld_unit_zero (S := S128x256) hz2, View.ld_unit_zero (S := S4096x256) hz2, View.ld_unit_zero (S := S128x4096) hz2]

set_option maxHeartbeats 2000000 in
/-- Step 7: the accumulator `xs` ends at `acc = xs + x1 · x3ᵀ`; with the bias row `x4` and the old cell block `x5`,
    the cell output buffer ends at the body's new-cell payload of `acc`, and the hidden output buffer at its
    new-hidden payload, whatever the two output buffers held. -/
theorem runD (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (hc0 : ¬cond0 i) (hc1 : ¬cond1 i) (hc2 : cond2 i) (hc3 : cond3 i)
    (x1 : Vec F S128x256 .f32) (x3 : Vec F S4096x256 .f32) (x4 : Vec F S1x4096 .f32) (x5 : Vec F S128x1024 .f32) (xs : Vec F S128x4096 .f32)
    (E : Set ℕ) (K : PUnit → sProp 𝕄) :
    iprop(owns (c : Thread nD τ) arg3 fullShare x1 ∗ owns (c : Thread nD τ) arg5 fullShare x3 ∗ owns (c : Thread nD τ) arg6 fullShare x4
        ∗ owns (c : Thread nD τ) arg7 fullShare x5 ∗ (∃ d, owns (c : Thread nD τ) arg8 fullShare d) ∗ (∃ d, owns (c : Thread nD τ) arg9 fullShare d)
        ∗ owns (c : Thread nD τ) arg10 fullShare xs
        ∗ (iprop(owns (c : Thread nD τ) arg3 fullShare x1 ∗ owns (c : Thread nD τ) arg5 fullShare x3 ∗ owns (c : Thread nD τ) arg6 fullShare x4
            ∗ owns (c : Thread nD τ) arg7 fullShare x5
            ∗ owns (c : Thread nD τ) arg8 fullShare (k0_pay6 (k0_pay3 x1 x3 xs) x4 x5)
            ∗ owns (c : Thread nD τ) arg9 fullShare (k0_pay5 (k0_pay3 x1 x3 xs) x4 x5)
            ∗ owns (c : Thread nD τ) arg10 fullShare (k0_pay3 x1 x3 xs)) -∗ K ⟨⟩))
      ⊢ wp frame (wpE (defs₀ (F := F)) Variants.none c none) E (cc0__lstm_kernel_body i arg2 harg2 arg3 harg3 arg4 harg4 arg5 harg5 arg6 harg6 arg7 harg7 arg8 harg8 arg9 harg9 arg10 harg10) K := by
  simp only [cc0__lstm_kernel_body_eq_skeleton]; unfold cc0__lstm_kernel_body_skel
  unfold owns
  iintro ⟨⟨%f1, %hf1, H1⟩, ⟨%f3, %hf3, H3⟩, ⟨%f4, %hf4, H4⟩, ⟨%f5, %hf5, H5⟩, ⟨%d8, %f8, -, H8⟩, ⟨%d9, %f9, -, H9⟩, ⟨%fs, %hfs, HS⟩, Hk⟩
  obtain rfl := harg3.eq_unread hf1; obtain rfl := harg5.eq_unread hf3; obtain rfl := harg6.eq_unread hf4
  obtain rfl := harg7.eq_unread hf5; obtain rfl := harg10.eq_unread hfs
  sl_exec (disch := first | exact hc0 | exact hc1 | exact hc2 | exact hc3)
  sl_step
  iapply Hk
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hacc : View.readCov (Val := Elt F) arg10.view [(⟨Rect.unit ![0, 0] S128x4096.size inb_S128x4096_S128x4096_0_0,
        k0_pay3 x1 x3 xs⟩ : View.Piece (Elt F) S128x4096 .f32)] (Rect.unit ![0, 0] S128x4096.size inb_S128x4096_S128x4096_0_0).toLoadRect
      = k0_pay3 x1 x3 xs := View.readCov_unit_zero (S := S128x4096) _ hz2 _ _
  isplitl [H8]
  · iexists _; isplitr
    swap; · iexact H8
    ipureintro
    rw [View.read_writes_eq_canon _ _ _ (View.cover_of_tiledL _ S128x1024.size (by sl_kernel_rfl))]

    sl_unfold_words
    rw [View.canon_unit_zero hz2]
    simp only [View.readAt_eq_ld, harg3.read_unread, harg5.read_unread, harg6.read_unread, harg7.read_unread, harg10.read_unread,
      View.readCov_unit_zero (S := S128x4096) _ hz2,
      View.ld_unit_zero (S := S128x256) hz2, View.ld_unit_zero (S := S4096x256) hz2, View.ld_unit_zero (S := S128x4096) hz2,
      View.ld_unit_zero (S := S1x4096) hz2, View.ld_unit_zero (S := S128x1024) hz2]
  isplitl [H9]
  · iexists _; isplitr
    swap; · iexact H9
    ipureintro
    rw [View.read_writes_eq_canon _ _ _ (View.cover_of_tiledL _ S128x1024.size (by sl_kernel_rfl))]
    sl_unfold_words
    rw [View.canon_unit_zero hz2]
    simp only [View.readAt_eq_ld, harg3.read_unread, harg5.read_unread, harg6.read_unread, harg7.read_unread, harg10.read_unread,
      View.readCov_unit_zero (S := S128x4096) _ hz2,
      View.ld_unit_zero (S := S128x256) hz2, View.ld_unit_zero (S := S4096x256) hz2, View.ld_unit_zero (S := S128x4096) hz2,
      View.ld_unit_zero (S := S1x4096) hz2, View.ld_unit_zero (S := S128x1024) hz2]
  iexists _; isplitr
  swap; · iexact HS
  ipureintro
  rw [View.read_writes_eq_canon _ _ _ (View.cover_of_tiledL _ S128x4096.size (by sl_kernel_rfl))]
  sl_unfold_words
  rw [View.canon_unit_zero hz2]
  simp only [View.readAt_eq_ld, harg3.read_unread, harg5.read_unread, harg10.read_unread,
    View.ld_unit_zero (S := S128x256) hz2, View.ld_unit_zero (S := S4096x256) hz2, View.ld_unit_zero (S := S128x4096) hz2]

end Cert.KernelIdeal.Hand

end
-- ==== Proof.KI.Frame.lean ====
/-
  The frame of the program: the proof data of its one pipelined region, the body's obligation at every grid point, the
  run, and that every argument array ends as it began.
  The only thing carried from one grid point to the next is the 128 × 4096 accumulator.  After point `t` it holds
  `accAt t`: at a step 0 the first x-tile product over zero; at steps 1 to 3 the x-tile product added to what the point
  before left; at steps 4 to 7 the h-tile product added likewise.  The two result windows are written only at step 7,
  from that accumulator, the bias row and the old cell block; at every other step their staging buffers are handed
  back as found and not written back.  Every input window's staging buffer holds its block of the array at every
  point, fetched there or not.
-/
import proofs.«120958_j68848325755666_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, the scratch, and the blocks at their literal types -/

abbrev ms0 (t : Fin cfg0.N) : Memref sig .tc .vmem S128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1024 .f32 := win0_7.stage (cfg0.slots t 7)
abbrev hs7 (t : Fin cfg0.N) : (ms7 t).IsWhole := hstage0_7 ((cfg0.slots t 7).cast nbuf0_7)
/-- The accumulator: a whole scoped buffer of the kernel's own. -/
abbrev scM : Memref sig .tc .vmem S128x4096 .f32 := Memref.whole cc0_scratch0

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The x block, the h block, the two weight blocks, the bias row and the old cell block at point `t`. -/
abbrev xblk (c : Dev nD) (t : Fin cfg0.N) : Vec F S128x256 .f32 := iblk m c 0 t
abbrev hblk (c : Dev nD) (t : Fin cfg0.N) : Vec F S128x256 .f32 := iblk m c 1 t
abbrev wblk (c : Dev nD) (t : Fin cfg0.N) : Vec F S4096x256 .f32 := iblk m c 2 t
abbrev ublk (c : Dev nD) (t : Fin cfg0.N) : Vec F S4096x256 .f32 := iblk m c 3 t
abbrev bblk (c : Dev nD) (t : Fin cfg0.N) : Vec F S1x4096 .f32 := iblk m c 4 t
abbrev cblk (c : Dev nD) (t : Fin cfg0.N) : Vec F S128x1024 .f32 := iblk m c 5 t

/-! ## The accumulator after each point -/

/-- What the accumulator holds after the body at position `n`. -/
def accAt (c : Dev nD) : (n : ℕ) → n < cfg0.N → Vec F S128x4096 .f32
  | 0, hn => k0_pay2 (xblk m c ⟨0, hn⟩) (wblk m c ⟨0, hn⟩) (k0_pay1 (F := F))
  | n + 1, hn =>
    if (n + 1) % 8 = 0 then k0_pay2 (xblk m c ⟨n + 1, hn⟩) (wblk m c ⟨n + 1, hn⟩) (k0_pay1 (F := F))
    else if (n + 1) % 8 < 4 then k0_pay2 (xblk m c ⟨n + 1, hn⟩) (wblk m c ⟨n + 1, hn⟩) (accAt c n (Nat.lt_of_succ_lt hn))
    else k0_pay3 (hblk m c ⟨n + 1, hn⟩) (ublk m c ⟨n + 1, hn⟩) (accAt c n (Nat.lt_of_succ_lt hn))

theorem accAt_A (c : Dev nD) (t : Fin cfg0.N) (h0 : t.val % 8 = 0) :
    accAt m c t.val t.isLt = k0_pay2 (xblk m c t) (wblk m c t) (k0_pay1 (F := F)) := by
  obtain ⟨n, hn⟩ := t
  cases n with
  | zero => rfl
  | succ n => exact if_pos h0

theorem accAt_B (c : Dev nD) (t : Fin cfg0.N) (h0 : ¬t.val % 8 = 0) (h1 : t.val % 8 < 4) :
    accAt m c t.val t.isLt = k0_pay2 (xblk m c t) (wblk m c t) (accAt m c (t.val - 1) (Nat.lt_of_le_of_lt (Nat.sub_le _ _) t.isLt)) := by
  obtain ⟨n, hn⟩ := t
  cases n with
  | zero => exact absurd (Nat.zero_mod _) h0
  | succ n => exact (if_neg h0).trans ((if_pos h1).trans rfl)

theorem accAt_C (c : Dev nD) (t : Fin cfg0.N) (h0 : ¬t.val % 8 = 0) (h1 : ¬t.val % 8 < 4) :
    accAt m c t.val t.isLt = k0_pay3 (hblk m c t) (ublk m c t) (accAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- The new hidden block and the new cell block the body forms from the accumulator at point `t` (stored at a step 7). -/
def hOut (c : Dev nD) (t : Fin cfg0.N) : Vec F S128x1024 .f32 := k0_pay6 (accAt m c t.val t.isLt) (bblk m c t) (cblk m c t)
def cOut (c : Dev nD) (t : Fin cfg0.N) : Vec F S128x1024 .f32 := k0_pay5 (accAt m c t.val t.isLt) (bblk m c t) (cblk m c t)

/-- The region invariant before position `n`: before the first point the accumulator at anything; afterwards at what
    the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body at point `t` each input's buffer at its block and the two
    results' at the blocks formed from the accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut m c t
    | ⟨7, _⟩ => cOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut m c t := by dsimp only [dats]
theorem after7 (c : Dev nD) (t : Fin cfg0.N) : (dats m 0 c).after 7 t = cOut m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, ¬t.val % 8 = 7 → cfg0.idle 6 (grid0.coords t) = true := by decide +kernel
theorem idle7 : ∀ t : Fin cfg0.N, ¬t.val % 8 = 7 → cfg0.idle 7 (grid0.coords t) = true := by decide +kernel
theorem noFlush6 : ∀ t : Fin cfg0.N, ¬t.val % 8 = 7 → (cfg0.win 6).flush t = false := by decide +kernel
theorem noFlush7 : ∀ t : Fin cfg0.N, ¬t.val % 8 = 7 → (cfg0.win 7).flush t = false := by decide +kernel
theorem live6 : ∀ t : Fin cfg0.N, t.val % 8 = 7 → cfg0.idle 6 (grid0.coords t) = false := by decide +kernel
theorem live7 : ∀ t : Fin cfg0.N, t.val % 8 = 7 → cfg0.idle 7 (grid0.coords t) = false := by decide +kernel

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]
theorem leaves5 (c : Dev nD) (t : Fin cfg0.N) :
    (dats m 0 c).leavesExact 5 t = owns (c : Thread nD τ) (ms5 t) fullShare (iblk m c 5 t) := by
  unfold Dat.leavesExact; rw [live5 t, after5]
theorem leaves6_live (c : Dev nD) (t : Fin cfg0.N) (h : t.val % 8 = 7) :
    (dats m 0 c).leavesExact 6 t = owns (c : Thread nD τ) (ms6 t) fullShare (hOut m c t) := by
  unfold Dat.leavesExact; rw [live6 t h, after6]
theorem leaves7_live (c : Dev nD) (t : Fin cfg0.N) (h : t.val % 8 = 7) :
    (dats m 0 c).leavesExact 7 t = owns (c : Thread nD τ) (ms7 t) fullShare (cOut m c t) := by
  unfold Dat.leavesExact; rw [live7 t h, after7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
/-- The body at any point: the step `t % 8` says which case the point is in; the inputs' buffers hold their blocks; the
    invariant hands the body the accumulator at what the point before left (at anything at the very first point, and
    a step 0 never reads it) and takes it back at this point's contents; the result buffers are handed back as found
    except at a step 7, which stores both. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 256 := lt_of_lt_of_eq t.isLt (show cfg0.N = 256 from N_0)
  by_cases h0 : t.val % 8 = 0
  · have h7 : ¬t.val % 8 = 7 := by omega
    rw [Dat.leavesExact_idle (dats m 0 c) 6 t (idle6 t h7) (noFlush6 t h7), Dat.leavesExact_idle (dats m 0 c) 7 t (idle7 t h7) (noFlush7 t h7)]
    rw [accAt_A m c t h0]
    have hc0 : cond0 (grid0.coords t) := (hcond0 t).mpr h0
    have hc1 : cond1 (grid0.coords t) := (hcond1 t).mpr (by omega)
    have hc2 : ¬cond2 (grid0.coords t) := fun h => absurd ((hcond2 t).mp h) (by omega)
    have hc3 : ¬cond3 (grid0.coords t) := fun h => h7 ((hcond3 t).mp h)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runA c (grid0.coords t) _ _ _ _ _ _ _ _ _ _ _ _ _ _ _ _ _ _ hc0 hc1 hc2 hc3 (xblk m c t) (wblk m c t) Set.univ _)
      isplitl [H0]; · iexact H0
      isplitl [H2]; · iexact H2
      isplitl [HS]; · iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runA c (grid0.coords t) _ _ _ _ _ _ _ _ _ _ _ _ _ _ _ _ _ _ hc0 hc1 hc2 hc3 (xblk m c t) (wblk m c t) Set.univ _)
      isplitl [H0]; · iexact H0
      isplitl [H2]; · iexact H2
      isplitl [HS]; · iexists _; iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    have hc0 : ¬cond0 (grid0.coords t) := fun h => h0 ((hcond0 t).mp h)
    rw [PhiS_castSucc m c t, PhiS_pos m c _ _ hz]
    by_cases h1 : t.val % 8 < 4
    · have h7 : ¬t.val % 8 = 7 := by omega
      rw [Dat.leavesExact_idle (dats m 0 c) 6 t (idle6 t h7) (noFlush6 t h7), Dat.leavesExact_idle (dats m 0 c) 7 t (idle7 t h7) (noFlush7 t h7)]
      rw [accAt_B m c t h0 h1]
      have hc1 : cond1 (grid0.coords t) := (hcond1 t).mpr h1
      have hc2 : ¬cond2 (grid0.coords t) := fun h => absurd ((hcond2 t).mp h) (by omega)
      have hc3 : ¬cond3 (grid0.coords t) := fun h => h7 ((hcond3 t).mp h)
      iintro ⟨⟨HS, Hg⟩, Ho, ⟨%d0, H0⟩, ⟨%d1, H1⟩, ⟨%d2, H2⟩, ⟨%d3, H3⟩, ⟨%d4, H4⟩, ⟨%d5, H5⟩, H6, H7⟩
      iapply (runB c (grid0.coords t) _ _ _ _ _ _ _ _ _ _ _ _ _ _ _ _ _ _ hc0 hc1 hc2 hc3 (xblk m c t) (wblk m c t) _ Set.univ _)
      isplitl [H0]; · iexact H0
      isplitl [H2]; · iexact H2
      isplitl [HS]; · iexact HS
      iintro ⟨H0, H2, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1 (grid0.coords t) := fun h => h1 ((hcond1 t).mp h)
      have hc2 : cond2 (grid0.coords t) := (hcond2 t).mpr (by omega)
      rw [accAt_C m c t h0 h1]
      by_cases h7 : t.val % 8 = 7
      · have hc3 : cond3 (grid0.coords t) := (hcond3 t).mpr h7
        rw [leaves6_live m c t h7, leaves7_live m c t h7]
        unfold hOut cOut
        rw [accAt_C m c t h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runD c (grid0.coords t) _ _ _ _ _ _ _ _ _ _ _ _ _ _ _ _ _ _ hc0 hc1 hc2 hc3 (hblk m c t) (ublk m c t) (bblk m c t) (cblk m c t) _ Set.univ _)
        isplitl [H1]; · iexact H1
        isplitl [H3]; · iexact H3
        isplitl [H4]; · iexact H4
        isplitl [H5]; · iexact H5
        isplitl [H6]; · iexists _; iexact H6
        isplitl [H7]; · iexists _; iexact H7
        isplitl [HS]; · iexact HS
        iintro ⟨H1, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · have hc3 : ¬cond3 (grid0.coords t) := fun h => h7 ((hcond3 t).mp h)
        rw [Dat.leavesExact_idle (dats m 0 c) 6 t (idle6 t h7) (noFlush6 t h7), Dat.leavesExact_idle (dats m 0 c) 7 t (idle7 t h7) (noFlush7 t h7)]
        iintro ⟨⟨HS, Hg⟩, Ho, ⟨%d0, H0⟩, ⟨%d1, H1⟩, ⟨%d2, H2⟩, ⟨%d3, H3⟩, ⟨%d4, H4⟩, ⟨%d5, H5⟩, H6, H7⟩
        iapply (runC c (grid0.coords t) _ _ _ _ _ _ _ _ _ _ _ _ _ _ _ _ _ _ hc0 hc1 hc2 hc3 (hblk m c t) (ublk m c t) _ Set.univ _)
        isplitl [H1]; · iexact H1
        isplitl [H3]; · iexact H3
        isplitl [HS]; · iexact HS
        iintro ⟨H1, H3, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- Every weakly fair execution of @main terminates, and in every final state every array of the pipeline holds what
    the library computes from the proof data and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The host operations write only their own results: every argument array is as launched when the region is entered. -/
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results
theorem V_arg6 (c : Dev nD) : V m c main_arg6 = m ((c : Thread nD τ).loc main_arg6) := by
  show StableHlo.after hostOps0 (fun b => m (c, b)) (Proc.devRef .tc main_arg6) = _
  after_results
theorem V_arg7 (c : Dev nD) : V m c main_arg7 = m ((c : Thread nD τ).loc main_arg7) := by
  show StableHlo.after hostOps0 (fun b => m (c, b)) (Proc.devRef .tc main_arg7) = _
  after_results
theorem V_arg8 (c : Dev nD) : V m c main_arg8 = m ((c : Thread nD τ).loc main_arg8) := by
  show StableHlo.after hostOps0 (fun b => m (c, b)) (Proc.devRef .tc main_arg8) = _
  after_results
theorem V_arg9 (c : Dev nD) : V m c main_arg9 = m ((c : Thread nD τ).loc main_arg9) := by
  show StableHlo.after hostOps0 (fun b => m (c, b)) (Proc.devRef .tc main_arg9) = _
  after_results
theorem V_arg10 (c : Dev nD) : V m c main_arg10 = m ((c : Thread nD τ).loc main_arg10) := by
  show StableHlo.after hostOps0 (fun b => m (c, b)) (Proc.devRef .tc main_arg10) = _
  after_results
theorem V_arg11 (c : Dev nD) : V m c main_arg11 = m ((c : Thread nD τ).loc main_arg11) := by
  show StableHlo.after hostOps0 (fun b => m (c, b)) (Proc.devRef .tc main_arg11) = _
  after_results
theorem V_arg12 (c : Dev nD) : V m c main_arg12 = m ((c : Thread nD τ).loc main_arg12) := by
  show StableHlo.after hostOps0 (fun b => m (c, b)) (Proc.devRef .tc main_arg12) = _
  after_results
theorem V_arg13 (c : Dev nD) : V m c main_arg13 = m ((c : Thread nD τ).loc main_arg13) := by
  show StableHlo.after hostOps0 (fun b => m (c, b)) (Proc.devRef .tc main_arg13) = _
  after_results
theorem V_arg14 (c : Dev nD) : V m c main_arg14 = m ((c : Thread nD τ).loc main_arg14) := by
  show StableHlo.after hostOps0 (fun b => m (c, b)) (Proc.devRef .tc main_arg14) = _
  after_results
theorem V_arg15 (c : Dev nD) : V m c main_arg15 = m ((c : Thread nD τ).loc main_arg15) := by
  show StableHlo.after hostOps0 (fun b => m (c, b)) (Proc.devRef .tc main_arg15) = _
  after_results
theorem V_arg16 (c : Dev nD) : V m c main_arg16 = m ((c : Thread nD τ).loc main_arg16) := by
  show StableHlo.after hostOps0 (fun b => m (c, b)) (Proc.devRef .tc main_arg16) = _
  after_results
theorem V_arg17 (c : Dev nD) : V m c main_arg17 = m ((c : Thread nD τ).loc main_arg17) := by
  show StableHlo.after hostOps0 (fun b => m (c, b)) (Proc.devRef .tc main_arg17) = _
  after_results
theorem V_arg18 (c : Dev nD) : V m c main_arg18 = m ((c : Thread nD τ).loc main_arg18) := by
  show StableHlo.after hostOps0 (fun b => m (c, b)) (Proc.devRef .tc main_arg18) = _
  after_results

/-- Every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    ((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 5).trans (((dats m 0 c).arrAt_in 5 rfl _).trans ((A_eq m c 5).trans (V_arg2 m c))),
    ((h c).2 main_arg3 (by decide)).trans (V_arg3 m c),
    ((h c).2 main_arg4 (by decide)).trans (V_arg4 m c),
    ((h c).2 main_arg5 (by decide)).trans (V_arg5 m c),
    ((h c).2 main_arg6 (by decide)).trans (V_arg6 m c),
    ((h c).2 main_arg7 (by decide)).trans (V_arg7 m c),
    ((h c).2 main_arg8 (by decide)).trans (V_arg8 m c),
    ((h c).2 main_arg9 (by decide)).trans (V_arg9 m c),
    ((h c).2 main_arg10 (by decide)).trans (V_arg10 m c),
    ((h c).2 main_arg11 (by decide)).trans (V_arg11 m c),
    ((h c).2 main_arg12 (by decide)).trans (V_arg12 m c),
    ((h c).2 main_arg13 (by decide)).trans (V_arg13 m c),
    ((h c).2 main_arg14 (by decide)).trans (V_arg14 m c),
    ((h c).2 main_arg15 (by decide)).trans (V_arg15 m c),
    ((h c).2 main_arg16 (by decide)).trans (V_arg16 m c),
    ((h c).2 main_arg17 (by decide)).trans (V_arg17 m c),
    ((h c).2 main_arg18 (by decide)).trans (V_arg18 m c)⟩) (run_main m ρ)

end Cert.KernelIdeal.Hand

end
-- ==== Proof.Spec.lean ====
/-
  The LSTM cell both programs compute, as one function of the nineteen argument arrays, index by index on the
  extended reals.  For a batch row `r` and a hidden unit `j`, each of the four gates (input, forget, cell, output)
  has the pre-activation
      pre W U b ub r j = ((Σ_d x[r,d]·W[j,d] + Σ_d h[r,d]·U[j,d]) + b[j]) + ub[j],
  the new cell state is  c' = σ(pre_f)·c + σ(pre_i)·tanh(pre_g)  and the new hidden state  h' = σ(pre_o)·tanh(c'),
  with σ the logistic function  1 / (1 + e^(-x)).  No program is imported here.
-/
import Idealize.ShloMosaic.PureOps.Ideal
import Idealize.ShloMosaic.Lib.ValueIdx

noncomputable section

namespace Cert.Lstm

open Idealize.ShloMosaic Idealize.ShloMosaic.ValueIdx
open scoped BigOperators

/-- A matrix of extended reals, indexed as the printed programs index a rank-2 array. -/
abbrev Mat (r c : Nat) : Type := (⟨2, ![r, c]⟩ : Shape).Idx → EReal
/-- A vector of extended reals, indexed as the printed programs index a rank-1 array. -/
abbrev Row (n : Nat) : Type := (⟨1, ![n]⟩ : Shape).Idx → EReal

/-- The nineteen arguments, in the order both programs take them. -/
structure Inputs where
  x : Mat 4096 1024
  h : Mat 4096 1024
  c : Mat 4096 1024
  Wi : Mat 1024 1024
  bi : Row 1024
  Wf : Mat 1024 1024
  bf : Row 1024
  Wg : Mat 1024 1024
  bg : Row 1024
  Wo : Mat 1024 1024
  bo : Row 1024
  Ui : Mat 1024 1024
  ubi : Row 1024
  Uf : Mat 1024 1024
  ubf : Row 1024
  Ug : Mat 1024 1024
  ubg : Row 1024
  Uo : Mat 1024 1024
  ubo : Row 1024

/-- One gate's pre-activation at batch row `r`, hidden unit `j`: the two contractions over the 1024 features, then
    the two biases, grouped from the left. -/
def pre (x h : Mat 4096 1024) (W U : Mat 1024 1024) (b ub : Row 1024) (r : Fin 4096) (j : Fin 1024) : EReal :=
  (((∑ d : Fin 1024, x (ix2 r d) * W (ix2 j d)) + (∑ d : Fin 1024, h (ix2 r d) * U (ix2 j d))) + b (ix1 j)) + ub (ix1 j)

/-- The new cell state at `(r, j)`. -/
def cNewAt (a : Inputs) (r : Fin 4096) (j : Fin 1024) : EReal :=
  Ideal.logistic (pre a.x a.h a.Wf a.Uf a.bf a.ubf r j) * a.c (ix2 r j)
    + Ideal.logistic (pre a.x a.h a.Wi a.Ui a.bi a.ubi r j) * Ideal.tanh (pre a.x a.h a.Wg a.Ug a.bg a.ubg r j)

/-- The new hidden state at `(r, j)`. -/
def hNewAt (a : Inputs) (r : Fin 4096) (j : Fin 1024) : EReal :=
  Ideal.logistic (pre a.x a.h a.Wo a.Uo a.bo a.ubo r j) * Ideal.tanh (cNewAt a r j)

/-- The new cell state as an array. -/
def cNew (a : Inputs) : Mat 4096 1024 := fun i => cNewAt a (i 0) (i 1)
/-- The new hidden state as an array. -/
def hNew (a : Inputs) : Mat 4096 1024 := fun i => hNewAt a (i 0) (i 1)

theorem cNew_ix2 (a : Inputs) (r : Fin 4096) (j : Fin 1024) : cNew a (ix2 r j) = cNewAt a r j := rfl
theorem hNew_ix2 (a : Inputs) (r : Fin 4096) (j : Fin 1024) : hNew a (ix2 r j) = hNewAt a r j := rfl

end Cert.Lstm

end
-- ==== Proof.Gates.lean ====
/-
  The four gates by number: 0 the input gate, 1 the forget gate, 2 the cell gate, 3 the output gate — the order in which
  both programs stack their weights and biases.  Gate `q`'s arrays, its pre-activation, and the two results restated
  over them.  No program is imported here.
-/
import proofs.«120958_j68848325755666_1_alg».proof.Proof.Spec

noncomputable section

namespace Cert.Lstm

open Idealize.ShloMosaic Idealize.ShloMosaic.ValueIdx
open scoped BigOperators

/-- Gate `q`'s input-to-hidden weights, hidden-to-hidden weights and two biases. -/
abbrev Inputs.W (a : Inputs) (q : Fin 4) : Mat 1024 1024 := ![a.Wi, a.Wf, a.Wg, a.Wo] q
abbrev Inputs.U (a : Inputs) (q : Fin 4) : Mat 1024 1024 := ![a.Ui, a.Uf, a.Ug, a.Uo] q
abbrev Inputs.b (a : Inputs) (q : Fin 4) : Row 1024 := ![a.bi, a.bf, a.bg, a.bo] q
abbrev Inputs.ub (a : Inputs) (q : Fin 4) : Row 1024 := ![a.ubi, a.ubf, a.ubg, a.ubo] q

/-- Gate `q`'s pre-activation at batch row `r`, hidden unit `j`. -/
def preq (a : Inputs) (q : Fin 4) (r : Fin 4096) (j : Fin 1024) : EReal :=
  pre a.x a.h (a.W q) (a.U q) (a.b q) (a.ub q) r j

theorem preq_def (a : Inputs) (q : Fin 4) (r : Fin 4096) (j : Fin 1024) :
    preq a q r j = (((∑ d : Fin 1024, a.x (ix2 r d) * a.W q (ix2 j d)) + (∑ d : Fin 1024, a.h (ix2 r d) * a.U q (ix2 j d)))
      + a.b q (ix1 j)) + a.ub q (ix1 j) := rfl

theorem cNewAt_eq (a : Inputs) (r : Fin 4096) (j : Fin 1024) :
    cNewAt a r j = Ideal.logistic (preq a 1 r j) * a.c (ix2 r j) + Ideal.logistic (preq a 0 r j) * Ideal.tanh (preq a 2 r j) := rfl

theorem hNewAt_eq (a : Inputs) (r : Fin 4096) (j : Fin 1024) :
    hNewAt a r j = Ideal.logistic (preq a 3 r j) * Ideal.tanh (cNewAt a r j) := rfl

end Cert.Lstm

end
-- ==== Proof.Concat4.lean ====
/-
  Four equal pieces stacked along the leading axis, read at an index.  Row `1024·q + j` of the stack of four
  1024 × 1024 matrices is row `j` of the `q`-th matrix, and entry `1024·q + j` of the stack of four 1024-vectors is
  entry `j` of the `q`-th vector.  No program is imported here.
-/
import Idealize.ShloMosaic.Lib.Pipeline.Value
import Idealize.ShloMosaic.Lib.ValueIdx

noncomputable section

namespace Cert.Lstm

open Idealize.ShloMosaic Idealize.ShloMosaic.ValueIdx

variable {α : Type}

/-- The stack of four 1024 × 1024 matrices at row `n = 1024·q + j`, column `d`. -/
theorem concat4_mat_apply (A0 A1 A2 A3 : (⟨2, ![1024, 1024]⟩ : Shape).Idx → α)
    (h : Shape.Concatenates [(⟨2, ![1024, 1024]⟩ : Shape), ⟨2, ![1024, 1024]⟩, ⟨2, ![1024, 1024]⟩, ⟨2, ![1024, 1024]⟩] ⟨2, ![4096, 1024]⟩ 0)
    (q : Fin 4) (j : Fin 1024) (d : Fin 1024) (n : Fin 4096) (hn : n.val = 1024 * q.val + j.val) :
    concatenate (⟨2, ![4096, 1024]⟩ : Shape) 0
        [⟨(⟨2, ![1024, 1024]⟩ : Shape), A0⟩, ⟨(⟨2, ![1024, 1024]⟩ : Shape), A1⟩, ⟨(⟨2, ![1024, 1024]⟩ : Shape), A2⟩, ⟨(⟨2, ![1024, 1024]⟩ : Shape), A3⟩] h (ix2 n d)
      = (![A0, A1, A2, A3] q) (ix2 j d) := by
  match q, hn with
  | ⟨0, _⟩, hn =>
    refine concatenate_apply_piece (t := (⟨2, ![4096, 1024]⟩ : Shape)) 0 _ _ _ 0 (by simp) ⟨2, ![1024, 1024]⟩ A0 rfl rfl 0 rfl (ix2 j d) ?_ ?_
    · intro b hb
      match b with
      | ⟨0, _⟩ => exact absurd rfl hb
      | ⟨1, _⟩ => rfl
    · have hn' : n.val = 1024 * 0 + j.val := hn
      show 0 + j.val = n.val
      omega
  | ⟨1, _⟩, hn =>
    refine concatenate_apply_piece (t := (⟨2, ![4096, 1024]⟩ : Shape)) 0 _ _ _ 1 (by simp) ⟨2, ![1024, 1024]⟩ A1 rfl rfl 1024 rfl (ix2 j d) ?_ ?_
    · intro b hb
      match b with
      | ⟨0, _⟩ => exact absurd rfl hb
      | ⟨1, _⟩ => rfl
    · have hn' : n.val = 1024 * 1 + j.val := hn
      show 1024 + j.val = n.val
      omega
  | ⟨2, _⟩, hn =>
    refine concatenate_apply_piece (t := (⟨2, ![4096, 1024]⟩ : Shape)) 0 _ _ _ 2 (by simp) ⟨2, ![1024, 1024]⟩ A2 rfl rfl 2048 rfl (ix2 j d) ?_ ?_
    · intro b hb
      match b with
      | ⟨0, _⟩ => exact absurd rfl hb
      | ⟨1, _⟩ => rfl
    · have hn' : n.val = 1024 * 2 + j.val := hn
      show 2048 + j.val = n.val
      omega
  | ⟨3, _⟩, hn =>
    refine concatenate_apply_piece (t := (⟨2, ![4096, 1024]⟩ : Shape)) 0 _ _ _ 3 (by simp) ⟨2, ![1024, 1024]⟩ A3 rfl rfl 3072 rfl (ix2 j d) ?_ ?_
    · intro b hb
      match b with
      | ⟨0, _⟩ => exact absurd rfl hb
      | ⟨1, _⟩ => rfl
    · have hn' : n.val = 1024 * 3 + j.val := hn
      show 3072 + j.val = n.val
      omega

/-- The stack of four 1024-vectors at entry `n = 1024·q + j`. -/
theorem concat4_row_apply (b0 b1 b2 b3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 4) (j : Fin 1024) (n : Fin 4096) (hn : n.val = 1024 * q.val + j.val) :
    concatenate (⟨1, ![4096]⟩ : Shape) 0
        [⟨(⟨1, ![1024]⟩ : Shape), b0⟩, ⟨(⟨1, ![1024]⟩ : Shape), b1⟩, ⟨(⟨1, ![1024]⟩ : Shape), b2⟩, ⟨(⟨1, ![1024]⟩ : Shape), b3⟩] h (ix1 n)
      = (![b0, b1, b2, b3] q) (ix1 j) := by
  match q, hn with
  | ⟨0, _⟩, hn =>
    refine concatenate_apply_piece (t := (⟨1, ![4096]⟩ : Shape)) 0 _ _ _ 0 (by simp) ⟨1, ![1024]⟩ b0 rfl rfl 0 rfl (ix1 j) ?_ ?_
    · intro b hb
      match b with
      | ⟨0, _⟩ => exact absurd rfl hb
    · have hn' : n.val = 1024 * 0 + j.val := hn
      show 0 + j.val = n.val
      omega
  | ⟨1, _⟩, hn =>
    refine concatenate_apply_piece (t := (⟨1, ![4096]⟩ : Shape)) 0 _ _ _ 1 (by simp) ⟨1, ![1024]⟩ b1 rfl rfl 1024 rfl (ix1 j) ?_ ?_
    · intro b hb
      match b with
      | ⟨0, _⟩ => exact absurd rfl hb
    · have hn' : n.val = 1024 * 1 + j.val := hn
      show 1024 + j.val = n.val
      omega
  | ⟨2, _⟩, hn =>
    refine concatenate_apply_piece (t := (⟨1, ![4096]⟩ : Shape)) 0 _ _ _ 2 (by simp) ⟨1, ![1024]⟩ b2 rfl rfl 2048 rfl (ix1 j) ?_ ?_
    · intro b hb
      match b with
      | ⟨0, _⟩ => exact absurd rfl hb
    · have hn' : n.val = 1024 * 2 + j.val := hn
      show 2048 + j.val = n.val
      omega
  | ⟨3, _⟩, hn =>
    refine concatenate_apply_piece (t := (⟨1, ![4096]⟩ : Shape)) 0 _ _ _ 3 (by simp) ⟨1, ![1024]⟩ b3 rfl rfl 3072 rfl (ix1 j) ?_ ?_
    · intro b hb
      match b with
      | ⟨0, _⟩ => exact absurd rfl hb
    · have hn' : n.val = 1024 * 3 + j.val := hn
      show 3072 + j.val = n.val
      omega

end Cert.Lstm

end
-- ==== Proof.KI.HostBlocks.lean ====
/-
  What the kernel's windows hold, entry by entry, in terms of the argument arrays.
  When the region is entered the three host results it reads are: the four input-to-hidden weight matrices stacked by
  rows, the four hidden-to-hidden weight matrices stacked by rows, and the 1 × 4096 row of the two stacked bias vectors
  added entry by entry.  At grid point `t` (batch tile `t / 8`, reduction step `t % 8`): the x block is rows
  `128·(t/8) …`, columns `256·(t%8) …` of x for a step below 4; the h block likewise with step `t%8 − 4` from step 4 on;
  the weight blocks are all 4096 rows and the same 256 columns of the stacked matrices; the bias row is whole; the old
  cell block and the two result blocks are rows `128·(t/8) …`, all 1024 columns.  The result blocks are written back at
  the steps 7, and those blocks cover the result arrays.
-/
import proofs.«120958_j68848325755666_1_alg».proof.Proof.KI.Frame
import proofs.«120958_j68848325755666_1_alg».proof.Proof.Gates
import proofs.«120958_j68848325755666_1_alg».proof.Proof.Concat4
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lstm (Mat Row)

variable (m : (ℓ : Loc nD τ sig) → Buf (Elt Ideal) ℓ)

/-- The kernel program's nineteen argument arrays on core `c`, as the specification's record. -/
def inputs (c : Dev nD) : Cert.Lstm.Inputs where
  x := m ((c.tc : Thread nD τ).loc main_arg0)
  h := m ((c.tc : Thread nD τ).loc main_arg1)
  c := m ((c.tc : Thread nD τ).loc main_arg2)
  Wi := m ((c.tc : Thread nD τ).loc main_arg3)
  bi := m ((c.tc : Thread nD τ).loc main_arg4)
  Wf := m ((c.tc : Thread nD τ).loc main_arg5)
  bf := m ((c.tc : Thread nD τ).loc main_arg6)
  Wg := m ((c.tc : Thread nD τ).loc main_arg7)
  bg := m ((c.tc : Thread nD τ).loc main_arg8)
  Wo := m ((c.tc : Thread nD τ).loc main_arg9)
  bo := m ((c.tc : Thread nD τ).loc main_arg10)
  Ui := m ((c.tc : Thread nD τ).loc main_arg11)
  ubi := m ((c.tc : Thread nD τ).loc main_arg12)
  Uf := m ((c.tc : Thread nD τ).loc main_arg13)
  ubf := m ((c.tc : Thread nD τ).loc main_arg14)
  Ug := m ((c.tc : Thread nD τ).loc main_arg15)
  ubg := m ((c.tc : Thread nD τ).loc main_arg16)
  Uo := m ((c.tc : Thread nD τ).loc main_arg17)
  ubo := m ((c.tc : Thread nD τ).loc main_arg18)

/-! ## The host results the region reads -/

/-- The first host result is the four input-to-hidden weight matrices stacked by rows. -/
theorem v0_eq (c : Dev nD) : (V m c main_v0 : S4096x1024.Idx → EReal)
    = concatenate S4096x1024 0
        [⟨S1024x1024, (inputs m c).Wi⟩, ⟨S1024x1024, (inputs m c).Wf⟩, ⟨S1024x1024, (inputs m c).Wg⟩, ⟨S1024x1024, (inputs m c).Wo⟩]
        concatenates_S1024x1024_S1024x1024_S1024x1024_S1024x1024_S4096x1024_d0 := by
  show StableHlo.after hostOps0 (fun b => m (c, b)) (Proc.devRef .tc main_v0) = _
  after_results
  rfl

/-- The second host result is the four hidden-to-hidden weight matrices stacked by rows. -/
theorem v1_eq (c : Dev nD) : (V m c main_v1 : S4096x1024.Idx → EReal)
    = concatenate S4096x1024 0
        [⟨S1024x1024, (inputs m c).Ui⟩, ⟨S1024x1024, (inputs m c).Uf⟩, ⟨S1024x1024, (inputs m c).Ug⟩, ⟨S1024x1024, (inputs m c).Uo⟩]
        concatenates_S1024x1024_S1024x1024_S1024x1024_S1024x1024_S4096x1024_d0 := by
  show StableHlo.after hostOps0 (fun b => m (c, b)) (Proc.devRef .tc main_v1) = _
  after_results
  rfl

/-- The last host result is the 1 × 4096 row whose entries are the sums, entry by entry, of the two stacks of four
    bias vectors. -/
theorem v5_eq (c : Dev nD) : (V m c main_v5 : S1x4096.Idx → EReal)
    = shapeCast S1x4096
        (addf (F := Ideal) (φ := .f32)
          (concatenate S4096 0 [⟨S1024, (inputs m c).bi⟩, ⟨S1024, (inputs m c).bf⟩, ⟨S1024, (inputs m c).bg⟩, ⟨S1024, (inputs m c).bo⟩]
            concatenates_S1024_S1024_S1024_S1024_S4096_d0 : FVec Ideal S4096 .f32)
          (concatenate S4096 0 [⟨S1024, (inputs m c).ubi⟩, ⟨S1024, (inputs m c).ubf⟩, ⟨S1024, (inputs m c).ubg⟩, ⟨S1024, (inputs m c).ubo⟩]
            concatenates_S1024_S1024_S1024_S1024_S4096_d0 : FVec Ideal S4096 .f32) : FVec Ideal S4096 .f32)
        shapeCasts_S4096_S1x4096 := by
  show StableHlo.after hostOps0 (fun b => m (c, b)) (Proc.devRef .tc main_v5) = _
  after_results
  rfl

theorem Wx_at (c : Dev nD) (q : Fin 4) (j d : Fin 1024) (n : Fin 4096) (hn : n.val = 1024 * q.val + j.val) :
    (V m c main_v0 : Mat 4096 1024) (ix2 n d) = (inputs m c).W q (ix2 j d) := by
  refine (congrFun (v0_eq m c) (ix2 n d)).trans ?_
  exact Cert.Lstm.concat4_mat_apply _ _ _ _ _ q j d n hn

theorem Uh_at (c : Dev nD) (q : Fin 4) (j d : Fin 1024) (n : Fin 4096) (hn : n.val = 1024 * q.val + j.val) :
    (V m c main_v1 : Mat 4096 1024) (ix2 n d) = (inputs m c).U q (ix2 j d) := by
  refine (congrFun (v1_eq m c) (ix2 n d)).trans ?_
  exact Cert.Lstm.concat4_mat_apply _ _ _ _ _ q j d n hn

theorem bias_at (c : Dev nD) (q : Fin 4) (j : Fin 1024) (n : Fin 4096) (hn : n.val = 1024 * q.val + j.val) :
    (V m c main_v5 : Mat 1 4096) (ix2 (0 : Fin 1) n) = (inputs m c).b q (ix1 j) + (inputs m c).ub q (ix1 j) := by
  -- entry (0, n) of the row is entry n of the sum, which is the sum of the two stacks' entries n
  refine (congrFun (v5_eq m c) (ix2 (0 : Fin 1) n)).trans ?_
  refine (shapeCast_a_1a_apply _ shapeCasts_S4096_S1x4096 (0 : Fin 1) n).trans ?_
  refine (addf_apply _ _ _).trans ?_
  exact congrArg₂ (· + ·) (Cert.Lstm.concat4_row_apply _ _ _ _ _ q j n hn) (Cert.Lstm.concat4_row_apply _ _ _ _ _ q j n hn)

/-! ## The input windows' blocks -/

/-- The block indices of the six input windows at grid point `t` (tile `t / 8`, step `t % 8`): the x window is at
    (tile, step) for a step below 4; the h window at (tile, step − 4) from step 4 on; the two weight windows at
    (0, step) and (0, step − 4) likewise; the bias window at (0, 0); the old cell window at (tile, 0). -/
theorem idx0 : ∀ t : Fin cfg0.N, win0_0.index t 0 = t.val / 8 ∧ (t.val % 8 < 4 → win0_0.index t 1 = t.val % 8) :=
  (by decide +kernel : ∀ t : Fin grid0.N, win0_0.index t 0 = t.val / 8 ∧ (t.val % 8 < 4 → win0_0.index t 1 = t.val % 8))
theorem idx1 : ∀ t : Fin cfg0.N, win0_1.index t 0 = t.val / 8 ∧ (4 ≤ t.val % 8 → win0_1.index t 1 = t.val % 8 - 4) :=
  (by decide +kernel : ∀ t : Fin grid0.N, win0_1.index t 0 = t.val / 8 ∧ (4 ≤ t.val % 8 → win0_1.index t 1 = t.val % 8 - 4))
theorem idx2 : ∀ t : Fin cfg0.N, win0_2.index t 0 = 0 ∧ (t.val % 8 < 4 → win0_2.index t 1 = t.val % 8) :=
  (by decide +kernel : ∀ t : Fin grid0.N, win0_2.index t 0 = 0 ∧ (t.val % 8 < 4 → win0_2.index t 1 = t.val % 8))
theorem idx3 : ∀ t : Fin cfg0.N, win0_3.index t 0 = 0 ∧ (4 ≤ t.val % 8 → win0_3.index t 1 = t.val % 8 - 4) :=
  (by decide +kernel : ∀ t : Fin grid0.N, win0_3.index t 0 = 0 ∧ (4 ≤ t.val % 8 → win0_3.index t 1 = t.val % 8 - 4))
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

theorem xblk_at (c : Dev nD) (t : Fin cfg0.N) (h : t.val % 8 < 4) (p : Fin 128) (d : Fin 256)
    (r : Fin 4096) (hr : r.val = 128 * (t.val / 8) + p.val) (e : Fin 1024) (he : e.val = 256 * (t.val % 8) + d.val) :
    xblk m c t (ix2 p d) = (inputs m c).x (ix2 r e) := by
  -- on each axis the element sits at block index × block size + its coordinate in the block
  have hi := idx0 t
  show iblk m c 0 t (ix2 p d) = m ((c.tc : Thread nD τ).loc main_arg0) (ix2 r e)
  unfold iblk
  rw [View.read_apply, ← V_arg0 m c]
  show V m c main_arg0 _ = V m c main_arg0 _
  congr 1
  funext a
  apply Fin.ext
  match a with
  | ⟨0, _⟩ => show win0_0.index t 0 * 128 + 1 * p.val = r.val; rw [hi.1, hr]; omega
  | ⟨1, _⟩ => show win0_0.index t 1 * 256 + 1 * d.val = e.val; rw [hi.2 h, he]; omega

theorem hblk_at (c : Dev nD) (t : Fin cfg0.N) (h : 4 ≤ t.val % 8) (p : Fin 128) (d : Fin 256)
    (r : Fin 4096) (hr : r.val = 128 * (t.val / 8) + p.val) (e : Fin 1024) (he : e.val = 256 * (t.val % 8 - 4) + d.val) :
    hblk m c t (ix2 p d) = (inputs m c).h (ix2 r e) := by
  have hi := idx1 t
  show iblk m c 1 t (ix2 p d) = m ((c.tc : Thread nD τ).loc main_arg1) (ix2 r e)
  unfold iblk
  rw [View.read_apply, ← V_arg1 m c]
  show V m c main_arg1 _ = V m c main_arg1 _
  congr 1
  funext a
  apply Fin.ext
  match a with
  | ⟨0, _⟩ => show win0_1.index t 0 * 128 + 1 * p.val = r.val; rw [hi.1, hr]; omega
  | ⟨1, _⟩ => show win0_1.index t 1 * 256 + 1 * d.val = e.val; rw [hi.2 h, he]; omega

theorem wblk_at (c : Dev nD) (t : Fin cfg0.N) (h : t.val % 8 < 4) (n : Fin 4096) (d : Fin 256)
    (e : Fin 1024) (he : e.val = 256 * (t.val % 8) + d.val) :
    wblk m c t (ix2 n d) = (V m c main_v0 : Mat 4096 1024) (ix2 n e) := by
  have hi := idx2 t
  show iblk m c 2 t (ix2 n d) = V m c main_v0 (ix2 n e)
  unfold iblk
  rw [View.read_apply]
  show V m c main_v0 _ = V m c main_v0 _
  congr 1
  funext a
  apply Fin.ext
  match a with
  | ⟨0, _⟩ => show win0_2.index t 0 * 4096 + 1 * n.val = n.val; rw [hi.1]; omega
  | ⟨1, _⟩ => show win0_2.index t 1 * 256 + 1 * d.val = e.val; rw [hi.2 h, he]; omega

theorem ublk_at (c : Dev nD) (t : Fin cfg0.N) (h : 4 ≤ t.val % 8) (n : Fin 4096) (d : Fin 256)
    (e : Fin 1024) (he : e.val = 256 * (t.val % 8 - 4) + d.val) :
    ublk m c t (ix2 n d) = (V m c main_v1 : Mat 4096 1024) (ix2 n e) := by
  have hi := idx3 t
  show iblk m c 3 t (ix2 n d) = V m c main_v1 (ix2 n e)
  unfold iblk
  rw [View.read_apply]
  show V m c main_v1 _ = V m c main_v1 _
  congr 1
  funext a
  apply Fin.ext
  match a with
  | ⟨0, _⟩ => show win0_3.index t 0 * 4096 + 1 * n.val = n.val; rw [hi.1]; omega
  | ⟨1, _⟩ => show win0_3.index t 1 * 256 + 1 * d.val = e.val; rw [hi.2 h, he]; omega

theorem bblk_at (c : Dev nD) (t : Fin cfg0.N) (n : Fin 4096) :
    bblk m c t (ix2 (0 : Fin 1) n) = (V m c main_v5 : Mat 1 4096) (ix2 (0 : Fin 1) n) := by
  have hi := idx4 t
  show iblk m c 4 t (ix2 (0 : Fin 1) n) = V m c main_v5 (ix2 (0 : Fin 1) n)
  unfold iblk
  rw [View.read_apply]
  show V m c main_v5 _ = V m c main_v5 _
  congr 1
  funext a
  apply Fin.ext
  match a with
  | ⟨0, _⟩ => show win0_4.index t 0 * 1 + 1 * (0 : Fin 1).val = (0 : Fin 1).val; rw [hi.1]; rfl
  | ⟨1, _⟩ => show win0_4.index t 1 * 4096 + 1 * n.val = n.val; rw [hi.2]; omega

theorem cblk_at (c : Dev nD) (t : Fin cfg0.N) (p : Fin 128) (j : Fin 1024)
    (r : Fin 4096) (hr : r.val = 128 * (t.val / 8) + p.val) :
    cblk m c t (ix2 p j) = (inputs m c).c (ix2 r j) := by
  have hi := idx5 t
  show iblk m c 5 t (ix2 p j) = m ((c.tc : Thread nD τ).loc main_arg2) (ix2 r j)
  unfold iblk
  rw [View.read_apply, ← V_arg2 m c]
  show V m c main_arg2 _ = V m c main_arg2 _
  congr 1
  funext a
  apply Fin.ext
  match a with
  | ⟨0, _⟩ => show win0_5.index t 0 * 128 + 1 * p.val = r.val; rw [hi.1, hr]; omega
  | ⟨1, _⟩ => show win0_5.index t 1 * 1024 + 1 * j.val = j.val; rw [hi.2]; omega

end Cert.KernelIdeal.Hand

end
-- ==== Proof.SumSplit.lean ====
/-
  The two regroupings of sums the kernel's tiling needs, on the extended reals (a commutative additive monoid: no
  finiteness is used).  The kernel contracts the 1024 features in four tiles of 256 and adds the eight tile products
  (four of the x contraction, four of the h contraction) into an accumulator that starts at zero, one after the other
  from the left.  No program is imported here.
-/
import Mathlib.Data.EReal.Basic
import Mathlib.Algebra.BigOperators.Fin

noncomputable section

namespace Cert.Lstm

open scoped BigOperators

/-- Feature `256·k + d`: entry `d` of tile `k` (wrapped into range so that it is total; for `k < 4` nothing wraps). -/
def col (k : ℕ) (d : Fin 256) : Fin 1024 := ⟨(256 * k + d.val) % 1024, Nat.mod_lt _ (by norm_num)⟩

theorem col_val (k : ℕ) (hk : k < 4) (d : Fin 256) : (col k d).val = 256 * k + d.val := by
  have hd := d.isLt
  exact Nat.mod_eq_of_lt (by omega)

/-- The four tile sums are the whole sum. -/
theorem sum_four_tiles (f : Fin 1024 → EReal) :
    (∑ d : Fin 256, f (col 0 d)) + (∑ d : Fin 256, f (col 1 d)) + (∑ d : Fin 256, f (col 2 d)) + (∑ d : Fin 256, f (col 3 d))
      = ∑ e : Fin 1024, f e := by
  -- feature `256·k + d` is the image of `(k, d)` under the bijection `Fin 4 × Fin 256 ≃ Fin 1024`
  have e : ∀ (k : Fin 4) (d : Fin 256), col k.val d = (finProdFinEquiv (k, d) : Fin 1024) := fun k d =>
    Fin.ext (by rw [col_val k.val k.isLt d]; show _ = d.val + 256 * k.val; omega)
  have whole : ∑ e : Fin 1024, f e = ∑ k : Fin 4, ∑ d : Fin 256, f (col k.val d) := by
    rw [← Equiv.sum_comp (finProdFinEquiv : Fin 4 × Fin 256 ≃ Fin 1024) f, Fintype.sum_prod_type]
    exact Finset.sum_congr rfl fun k _ => Finset.sum_congr rfl fun d _ => congrArg f (e k d).symm
  rw [whole, Fin.sum_univ_four]
  rfl

/-- Eight terms added to zero one after the other from the left, regrouped as two sums of four. -/
theorem acc_eight (X0 X1 X2 X3 H0 H1 H2 H3 : EReal) :
    (((((((0 + X0) + X1) + X2) + X3) + H0) + H1) + H2) + H3 = (X0 + X1 + X2 + X3) + (H0 + H1 + H2 + H3) := by
  simp only [zero_add, add_assoc]

/-- The gate input as the kernel groups it against the specification's grouping: the two biases are added to each
    other first in the kernel, one after the other in the specification. -/
theorem bias_regroup (s b ub : EReal) : s + (b + ub) = (s + b) + ub := by
  exact (add_assoc s b ub).symm

end Cert.Lstm

end
-- ==== Proof.KI.Acc.lean ====
/-
  The accumulator after each grid point, entry by entry, and the gate inputs it yields at a reduction step 7.
  Entry `(p, n)` of the accumulator after point `t` (batch tile `t / 8`, step `s = t % 8`) is zero plus the first
  `s + 1` of the eight tile products of batch row `128·(t/8) + p` with stacked weight row `n`: tiles 0 to 3 of the
  contraction of x with the stacked input-to-hidden weights, then tiles 0 to 3 of the contraction of h with the stacked
  hidden-to-hidden weights, added one after the other from the left.  By induction on the point: a step 0 starts from
  the reset value, every other step adds its tile to what the point before left, and the point before is in the same
  batch tile.  After a step 7 all eight are in; the four x tiles make the whole x contraction and the four h tiles the
  whole h contraction, row `n = 1024·q + j` of a stack is row `j` of gate `q`'s matrix, and with the bias row the entry
  is gate `q`'s pre-activation.
-/
import proofs.«120958_j68848325755666_1_alg».proof.Proof.KI.Payloads
import proofs.«120958_j68848325755666_1_alg».proof.Proof.KI.HostBlocks
import proofs.«120958_j68848325755666_1_alg».proof.Proof.SumSplit

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Cert.Lstm (Mat Row col col_val)
open scoped BigOperators

variable (m : (ℓ : Loc nD τ sig) → Buf (Elt Ideal) ℓ)

/-- The batch row of block row `p` at position `k` of the grid (wrapped into range so that it is total; on the grid
    nothing wraps). -/
def row (k : ℕ) (p : Fin 128) : Fin 4096 := ⟨(128 * (k / 8) + p.val) % 4096, Nat.mod_lt _ (by norm_num)⟩

theorem row_val (k : ℕ) (hk : k < cfg0.N) (p : Fin 128) : (row k p).val = 128 * (k / 8) + p.val := by
  have hN : cfg0.N = 256 := N_0
  have hp := p.isLt
  show (128 * (k / 8) + p.val) % 4096 = _
  omega

theorem row_succ (k : ℕ) (h : ¬(k + 1) % 8 = 0) (p : Fin 128) : row (k + 1) p = row k p := by
  apply Fin.ext
  show (128 * ((k + 1) / 8) + p.val) % 4096 = (128 * (k / 8) + p.val) % 4096
  have : (k + 1) / 8 = k / 8 := by omega
  rw [this]

/-- The stacked weight matrices as the region finds them. -/
abbrev Wx (c : Dev nD) : Mat 4096 1024 := V m c main_v0
abbrev Uh (c : Dev nD) : Mat 4096 1024 := V m c main_v1

/-- Tile `k` of the x contraction and of the h contraction, at batch row `r` and stacked weight row `n`. -/
def tileX (c : Dev nD) (r n : Fin 4096) (k : ℕ) : EReal :=
  ∑ d : Fin 256, (inputs m c).x (ix2 r (col k d)) * Wx m c (ix2 n (col k d))
def tileH (c : Dev nD) (r n : Fin 4096) (k : ℕ) : EReal :=
  ∑ d : Fin 256, (inputs m c).h (ix2 r (col k d)) * Uh m c (ix2 n (col k d))

/-- The tile a reduction step adds. -/
def term (c : Dev nD) (r n : Fin 4096) (s : ℕ) : EReal :=
  if s < 4 then tileX m c r n s else tileH m c r n (s - 4)

/-- Zero plus the tiles of the steps up to `s`, added from the left. -/
def partialSum (c : Dev nD) (r n : Fin 4096) : ℕ → EReal
  | 0 => 0 + term m c r n 0
  | s + 1 => partialSum c r n s + term m c r n (s + 1)

/-- The tile the body adds at point `t` is the step's term. -/
theorem xtile_eq (c : Dev nD) (t : Fin cfg0.N) (h : t.val % 8 < 4) (p : Fin 128) (n : Fin 4096) :
    (∑ d : Fin 256, xblk m c t (ix2 p d) * wblk m c t (ix2 n d)) = term m c (row t.val p) n (t.val % 8) := by
  unfold term tileX
  rw [if_pos h]
  refine Finset.sum_congr rfl fun d _ => ?_
  rw [xblk_at m c t h p d (row t.val p) (row_val t.val t.isLt p) (col (t.val % 8) d) (col_val _ h d),
    wblk_at m c t h n d (col (t.val % 8) d) (col_val _ h d)]

theorem htile_eq (c : Dev nD) (t : Fin cfg0.N) (h : ¬t.val % 8 < 4) (p : Fin 128) (n : Fin 4096) :
    (∑ d : Fin 256, hblk m c t (ix2 p d) * ublk m c t (ix2 n d)) = term m c (row t.val p) n (t.val % 8) := by
  unfold term tileH
  rw [if_neg h]
  have h4 : 4 ≤ t.val % 8 := by omega
  have hk : t.val % 8 - 4 < 4 := by omega
  refine Finset.sum_congr rfl fun d _ => ?_
  rw [hblk_at m c t h4 p d (row t.val p) (row_val t.val t.isLt p) (col (t.val % 8 - 4) d) (col_val _ hk d),
    ublk_at m c t h4 n d (col (t.val % 8 - 4) d) (col_val _ hk d)]

/-- THE ACCUMULATOR, entry by entry. -/
theorem accAt_eq (c : Dev nD) : ∀ (k : ℕ) (hk : k < cfg0.N) (p : Fin 128) (n : Fin 4096),
    accAt m c k hk (ix2 p n) = partialSum m c (row k p) n (k % 8) := by
  intro k
  induction k with
  | zero =>
    intro hk p n
    have e : accAt m c 0 hk = k0_pay2 (xblk m c ⟨0, hk⟩) (wblk m c ⟨0, hk⟩) (k0_pay1 (F := Ideal)) := rfl
    rw [e, pay2_apply, pay1_apply, xtile_eq m c ⟨0, hk⟩ (show (0 : ℕ) % 8 < 4 by decide) p n]
    rfl
  | succ k ih =>
    intro hk p n
    by_cases h0 : (k + 1) % 8 = 0
    · have e : accAt m c (k + 1) hk = k0_pay2 (xblk m c ⟨k + 1, hk⟩) (wblk m c ⟨k + 1, hk⟩) (k0_pay1 (F := Ideal)) :=
        accAt_A m c ⟨k + 1, hk⟩ h0
      rw [e, pay2_apply, pay1_apply, xtile_eq m c ⟨k + 1, hk⟩ (by show (k + 1) % 8 < 4; omega) p n]
      show 0 + term m c (row (k + 1) p) n ((k + 1) % 8) = partialSum m c (row (k + 1) p) n ((k + 1) % 8)
      rw [h0]
      rfl
    · have hs : (k + 1) % 8 = k % 8 + 1 := by omega
      by_cases h1 : (k + 1) % 8 < 4
      · have e : accAt m c (k + 1) hk
            = k0_pay2 (xblk m c ⟨k + 1, hk⟩) (wblk m c ⟨k + 1, hk⟩) (accAt m c k (Nat.lt_of_succ_lt hk)) :=
          accAt_B m c ⟨k + 1, hk⟩ h0 h1
        rw [e, pay2_apply, ih (Nat.lt_of_succ_lt hk) p n, xtile_eq m c ⟨k + 1, hk⟩ h1 p n]
        show partialSum m c (row k p) n (k % 8) + term m c (row (k + 1) p) n ((k + 1) % 8)
          = partialSum m c (row (k + 1) p) n ((k + 1) % 8)
        rw [row_succ k h0 p, hs]
        rfl
      · have e : accAt m c (k + 1) hk
            = k0_pay3 (hblk m c ⟨k + 1, hk⟩) (ublk m c ⟨k + 1, hk⟩) (accAt m c k (Nat.lt_of_succ_lt hk)) :=
          accAt_C m c ⟨k + 1, hk⟩ h0 h1
        rw [e, pay3_apply, ih (Nat.lt_of_succ_lt hk) p n, htile_eq m c ⟨k + 1, hk⟩ h1 p n]
        show partialSum m c (row k p) n (k % 8) + term m c (row (k + 1) p) n ((k + 1) % 8)
          = partialSum m c (row (k + 1) p) n ((k + 1) % 8)
        rw [row_succ k h0 p, hs]
        rfl

/-- A tile of the x contraction against stacked row `1024·q + j` is the tile against gate `q`'s row `j`. -/
theorem tileX_gate (c : Dev nD) (r n : Fin 4096) (q : Fin 4) (j : Fin 1024) (hn : n.val = 1024 * q.val + j.val) (k : ℕ) :
    tileX m c r n k = ∑ d : Fin 256, (fun e : Fin 1024 => (inputs m c).x (ix2 r e) * (inputs m c).W q (ix2 j e)) (col k d) := by
  unfold tileX
  refine Finset.sum_congr rfl fun d _ => ?_
  exact congrArg (fun z => (inputs m c).x (ix2 r (col k d)) * z) (Wx_at m c q j (col k d) n hn)

theorem tileH_gate (c : Dev nD) (r n : Fin 4096) (q : Fin 4) (j : Fin 1024) (hn : n.val = 1024 * q.val + j.val) (k : ℕ) :
    tileH m c r n k = ∑ d : Fin 256, (fun e : Fin 1024 => (inputs m c).h (ix2 r e) * (inputs m c).U q (ix2 j e)) (col k d) := by
  unfold tileH
  refine Finset.sum_congr rfl fun d _ => ?_
  exact congrArg (fun z => (inputs m c).h (ix2 r (col k d)) * z) (Uh_at m c q j (col k d) n hn)

/-- All eight tiles are the two whole contractions. -/
theorem partialSum_seven (c : Dev nD) (r n : Fin 4096) (q : Fin 4) (j : Fin 1024) (hn : n.val = 1024 * q.val + j.val) :
    partialSum m c r n 7
      = (∑ e : Fin 1024, (inputs m c).x (ix2 r e) * (inputs m c).W q (ix2 j e))
        + (∑ e : Fin 1024, (inputs m c).h (ix2 r e) * (inputs m c).U q (ix2 j e)) := by
  show (((((((0 + term m c r n 0) + term m c r n 1) + term m c r n 2) + term m c r n 3) + term m c r n 4)
      + term m c r n 5) + term m c r n 6) + term m c r n 7 = _
  have t0 : term m c r n 0 = tileX m c r n 0 := if_pos (by decide)
  have t1 : term m c r n 1 = tileX m c r n 1 := if_pos (by decide)
  have t2 : term m c r n 2 = tileX m c r n 2 := if_pos (by decide)
  have t3 : term m c r n 3 = tileX m c r n 3 := if_pos (by decide)
  have t4 : term m c r n 4 = tileH m c r n 0 := if_neg (by decide)
  have t5 : term m c r n 5 = tileH m c r n 1 := if_neg (by decide)
  have t6 : term m c r n 6 = tileH m c r n 2 := if_neg (by decide)
  have t7 : term m c r n 7 = tileH m c r n 3 := if_neg (by decide)
  rw [t0, t1, t2, t3, t4, t5, t6, t7, Cert.Lstm.acc_eight]
  simp only [tileX_gate m c r n q j hn, tileH_gate m c r n q j hn]
  exact congrArg₂ (· + ·)
    (Cert.Lstm.sum_four_tiles (fun e : Fin 1024 => (inputs m c).x (ix2 r e) * (inputs m c).W q (ix2 j e)))
    (Cert.Lstm.sum_four_tiles (fun e : Fin 1024 => (inputs m c).h (ix2 r e) * (inputs m c).U q (ix2 j e)))

/-- THE GATE INPUT at a step 7: entry `(p, 1024·q + j)` of the accumulator plus the bias row is gate `q`'s
    pre-activation at the point's batch row. -/
theorem gate_eq (c : Dev nD) (t : Fin cfg0.N) (h7 : t.val % 8 = 7) (p : Fin 128) (q : Fin 4) (j : Fin 1024)
    (n : Fin 4096) (hn : n.val = 1024 * q.val + j.val) :
    k0_pay4 (F := Ideal) (accAt m c t.val t.isLt) (bblk m c t) (ix2 p n) = Cert.Lstm.preq (inputs m c) q (row t.val p) j := by
  rw [pay4_apply, accAt_eq m c t.val t.isLt p n, h7, partialSum_seven m c (row t.val p) n q j hn, bblk_at m c t n,
    bias_at m c q j n hn, Cert.Lstm.bias_regroup, Cert.Lstm.preq_def]

end Cert.KernelIdeal.Hand

end
-- ==== Proof.KI.OutBlocks.lean ====
/-
  The two result windows.  At grid point `t` each one's block is rows `128·(t/8) …`, all 1024 columns, of its
  4096 × 1024 array; a block is written back exactly at the reduction steps 7, one per batch tile, and those 32
  blocks cover the array.
-/
import proofs.«120958_j68848325755666_1_alg».proof.Proof.KI.Frame
import proofs.«120958_j68848325755666_1_alg».proof.Proof.Gates
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lstm (Mat Row)

/-! ## The result windows' blocks: where they sit, and that the written-back ones cover the arrays -/

/-- Result window 6's printed index map, decided over the 256 grid points: at point `t` the block index is the batch
    tile `t / 8` on the row axis and 0 on the column axis. -/
theorem idx6 : ∀ t : Fin cfg0.N, win0_6.index t (0 : Fin 2) = t.val / 8 ∧ win0_6.index t (1 : Fin 2) = 0 :=
  (by decide +kernel : ∀ t : Fin grid0.N, _)

/-- An index of the 4096 × 1024 array is in point `t`'s block of window 6 iff each coordinate lies in the block's range
    on its axis, which starts at block index × block size and is one block size long. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v6_0).slice (win0_6.rect t)).set ↔ _
  rw [View.set_slice_whole, Rect.mem_set_unit]
  exact Iff.rfl

/-- Result window 7's printed index map, decided over the 256 grid points: at point `t` the block index is the batch
    tile `t / 8` on the row axis and 0 on the column axis. -/
theorem idx7 : ∀ t : Fin cfg0.N, win0_7.index t (0 : Fin 2) = t.val / 8 ∧ win0_7.index t (1 : Fin 2) = 0 :=
  (by decide +kernel : ∀ t : Fin grid0.N, _)

/-- An index of the 4096 × 1024 array is in point `t`'s block of window 7 iff each coordinate lies in the block's range
    on its axis, which starts at block index × block size and is one block size long. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v6_1).slice (win0_7.rect t)).set ↔ _
  rw [View.set_slice_whole, Rect.mem_set_unit]
  exact Iff.rfl

theorem out6_read (c : Dev nD) (t : Fin cfg0.N) (G : Mat 4096 1024) (p : Fin 128) (j : Fin 1024)
    (r : Fin 4096) (hr : r.val = 128 * (t.val / 8) + p.val) :
    (((cfg0.win 6).blk t).view.read (Elt Ideal) (G : Buf (Elt Ideal) ((cfg0.win 6).arr.view.loc (c.tc : Thread nD τ))) : Mat 128 1024) (ix2 p j)
      = G (ix2 r j) := by
  -- The block's element (p, j) is the array's element at (block index × 128 + p, block index × 1024 + j) = (128·(t/8) + p, j).
  rw [View.read_apply]
  show G (((cfg0.win 6).blk t).view.emb (ix2 p j)) = G (ix2 r j)
  refine congrArg G ?_
  funext a; apply Fin.ext
  obtain ⟨e0, e1⟩ := idx6 t
  match a with
  | ⟨0, _⟩ => show win0_6.index t (0 : Fin 2) * 128 + 1 * p.val = r.val; omega
  | ⟨1, _⟩ => show win0_6.index t (1 : Fin 2) * 1024 + 1 * j.val = j.val; omega

theorem out7_read (c : Dev nD) (t : Fin cfg0.N) (G : Mat 4096 1024) (p : Fin 128) (j : Fin 1024)
    (r : Fin 4096) (hr : r.val = 128 * (t.val / 8) + p.val) :
    (((cfg0.win 7).blk t).view.read (Elt Ideal) (G : Buf (Elt Ideal) ((cfg0.win 7).arr.view.loc (c.tc : Thread nD τ))) : Mat 128 1024) (ix2 p j)
      = G (ix2 r j) := by
  -- The block's element (p, j) is the array's element at (block index × 128 + p, block index × 1024 + j) = (128·(t/8) + p, j).
  rw [View.read_apply]
  show G (((cfg0.win 7).blk t).view.emb (ix2 p j)) = G (ix2 r j)
  refine congrArg G ?_
  funext a; apply Fin.ext
  obtain ⟨e0, e1⟩ := idx7 t
  match a with
  | ⟨0, _⟩ => show win0_7.index t (0 : Fin 2) * 128 + 1 * p.val = r.val; omega
  | ⟨1, _⟩ => show win0_7.index t (1 : Fin 2) * 1024 + 1 * j.val = j.val; omega

theorem out6_cover (c : Dev nD) (i : ((cfg0.win 6).arr.view.loc (c.tc : Thread nD τ)).2.ty.Idx) :
    ∃ t : Fin cfg0.N, (cfg0.win 6).flush t = true ∧ i ∈ ((cfg0.win 6).blk t).view.set := by
  -- Row `i 0` lies in batch tile `i 0 / 128`; that tile's step-7 point is `8·(i 0 / 128) + 7`, whose block is rows
  -- `128·(i 0 / 128) … 128·(i 0 / 128) + 127` and all 1024 columns.
  have hi0 : (i 0).val < 4096 := (i 0).isLt
  have hi1 : (i 1).val < 1024 := (i 1).isLt
  have hN : cfg0.N = 256 := N_0
  have hlt : 8 * ((i 0).val / 128) + 7 < cfg0.N := by rw [hN]; omega
  refine ⟨⟨8 * ((i 0).val / 128) + 7, hlt⟩, (flush0_6 _).mpr ?_, ?_⟩
  · show (8 * ((i 0).val / 128) + 7) % 8 = 7
    omega
  · rw [mem_blk6]
    obtain ⟨e0, e1⟩ := idx6 ⟨8 * ((i 0).val / 128) + 7, hlt⟩
    have e0' : win0_6.index ⟨8 * ((i 0).val / 128) + 7, hlt⟩ (0 : Fin 2) = (8 * ((i 0).val / 128) + 7) / 8 := e0
    intro a
    match a with
    | ⟨0, _⟩ =>
      show win0_6.index ⟨8 * ((i 0).val / 128) + 7, hlt⟩ (0 : Fin 2) * 128 ≤ (i 0).val ∧ (i 0).val < win0_6.index ⟨8 * ((i 0).val / 128) + 7, hlt⟩ (0 : Fin 2) * 128 + 128
      omega
    | ⟨1, _⟩ =>
      show win0_6.index ⟨8 * ((i 0).val / 128) + 7, hlt⟩ (1 : Fin 2) * 1024 ≤ (i 1).val ∧ (i 1).val < win0_6.index ⟨8 * ((i 0).val / 128) + 7, hlt⟩ (1 : Fin 2) * 1024 + 1024
      omega

theorem out7_cover (c : Dev nD) (i : ((cfg0.win 7).arr.view.loc (c.tc : Thread nD τ)).2.ty.Idx) :
    ∃ t : Fin cfg0.N, (cfg0.win 7).flush t = true ∧ i ∈ ((cfg0.win 7).blk t).view.set := by
  -- Row `i 0` lies in batch tile `i 0 / 128`; that tile's step-7 point is `8·(i 0 / 128) + 7`, whose block is rows
  -- `128·(i 0 / 128) … 128·(i 0 / 128) + 127` and all 1024 columns.
  have hi0 : (i 0).val < 4096 := (i 0).isLt
  have hi1 : (i 1).val < 1024 := (i 1).isLt
  have hN : cfg0.N = 256 := N_0
  have hlt : 8 * ((i 0).val / 128) + 7 < cfg0.N := by rw [hN]; omega
  refine ⟨⟨8 * ((i 0).val / 128) + 7, hlt⟩, (flush0_7 _).mpr ?_, ?_⟩
  · show (8 * ((i 0).val / 128) + 7) % 8 = 7
    omega
  · rw [mem_blk7]
    obtain ⟨e0, e1⟩ := idx7 ⟨8 * ((i 0).val / 128) + 7, hlt⟩
    have e0' : win0_7.index ⟨8 * ((i 0).val / 128) + 7, hlt⟩ (0 : Fin 2) = (8 * ((i 0).val / 128) + 7) / 8 := e0
    intro a
    match a with
    | ⟨0, _⟩ =>
      show win0_7.index ⟨8 * ((i 0).val / 128) + 7, hlt⟩ (0 : Fin 2) * 128 ≤ (i 0).val ∧ (i 0).val < win0_7.index ⟨8 * ((i 0).val / 128) + 7, hlt⟩ (0 : Fin 2) * 128 + 128
      omega
    | ⟨1, _⟩ =>
      show win0_7.index ⟨8 * ((i 0).val / 128) + 7, hlt⟩ (1 : Fin 2) * 1024 ≤ (i 1).val ∧ (i 1).val < win0_7.index ⟨8 * ((i 0).val / 128) + 7, hlt⟩ (1 : Fin 2) * 1024 + 1024
      omega

end Cert.KernelIdeal.Hand

end
-- ==== Proof.KI.Final.lean ====
/-
  The kernel's two results are the specification's.  At a reduction step 7 the body forms, from the accumulator (all
  eight tile products in), the bias row and the old cell block, the new cell block and the new hidden block; entry
  `(p, j)` of each is the specification's new cell / hidden state at batch row `128·(t/8) + p`, hidden unit `j`, because
  the four column quarters of the gate input are the four gates' pre-activations.  Each such block is written back to
  rows `128·(t/8) …` of its result array, the 32 written-back blocks cover the array, and so each result array ends
  holding the specification's array of the argument arrays.
-/
import proofs.«120958_j68848325755666_1_alg».proof.Proof.KI.Acc
import proofs.«120958_j68848325755666_1_alg».proof.Proof.KI.OutBlocks

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lstm (Mat Row)

variable (m : (ℓ : Loc nD τ sig) → Buf (Elt Ideal) ℓ) (ρ : Dev nD → PrngReg)

/-- Two functions of a rank-2 index agree if they agree at every pair of coordinates. -/
theorem funext_ix2 {n0 n1 : Nat} {α : Type} (f g : (⟨2, ![n0, n1]⟩ : Shape).Idx → α)
    (h : ∀ (a : Fin n0) (b : Fin n1), f (ix2 a b) = g (ix2 a b)) : f = g :=
  funext fun y => by rw [eq_ix2 y]; exact h _ _

/-- The new cell block at a step 7, entry by entry. -/
theorem cOut_at (c : Dev nD) (t : Fin cfg0.N) (h7 : t.val % 8 = 7) (p : Fin 128) (j : Fin 1024) :
    cOut m c t (ix2 p j) = Cert.Lstm.cNewAt (inputs m c) (row t.val p) j := by
  unfold cOut
  rw [pay5_apply, gate_eq m c t h7 p 1 j _ (by simp), gate_eq m c t h7 p 0 j _ (by simp), gate_eq m c t h7 p 2 j _ (by simp),
    cblk_at m c t p j (row t.val p) (row_val t.val t.isLt p), Cert.Lstm.cNewAt_eq]

/-- The new hidden block at a step 7, entry by entry. -/
theorem hOut_at (c : Dev nD) (t : Fin cfg0.N) (h7 : t.val % 8 = 7) (p : Fin 128) (j : Fin 1024) :
    hOut m c t (ix2 p j) = Cert.Lstm.hNewAt (inputs m c) (row t.val p) j := by
  unfold hOut
  rw [pay6_apply, gate_eq m c t h7 p 3 j _ (by simp)]
  rw [show k0_pay5 (F := Ideal) (accAt m c t.val t.isLt) (bblk m c t) (cblk m c t) (ix2 p j) = cOut m c t (ix2 p j) from rfl,
    cOut_at m c t h7 p j, Cert.Lstm.hNewAt_eq]

/-- What a step 7 writes back to the hidden-state array is its block of the specification's array. -/
theorem flushed6_eq (c : Dev nD) (t : Fin cfg0.N) (hf : (cfg0.win 6).flush t = true) :
    (dats m 0 c).flushed 6 t
      = ((cfg0.win 6).blk t).view.read (Elt Ideal) (Cert.Lstm.hNew (inputs m c) : Buf (Elt Ideal) ((cfg0.win 6).arr.view.loc (c.tc : Thread nD τ))) := by
  have h7 : t.val % 8 = 7 := (flush0_6 t).mp hf
  show (cfg0.win 6).cut (grid0.coords t) ((dats m 0 c).after 6 t) = _
  rw [after6]
  refine funext_ix2 (n0 := 128) (n1 := 1024) _ _ fun p j => ?_
  rw [out6_read c t (Cert.Lstm.hNew (inputs m c)) p j (row t.val p) (row_val t.val t.isLt p)]
  exact hOut_at m c t h7 p j

/-- And to the cell-state array. -/
theorem flushed7_eq (c : Dev nD) (t : Fin cfg0.N) (hf : (cfg0.win 7).flush t = true) :
    (dats m 0 c).flushed 7 t
      = ((cfg0.win 7).blk t).view.read (Elt Ideal) (Cert.Lstm.cNew (inputs m c) : Buf (Elt Ideal) ((cfg0.win 7).arr.view.loc (c.tc : Thread nD τ))) := by
  have h7 : t.val % 8 = 7 := (flush0_7 t).mp hf
  show (cfg0.win 7).cut (grid0.coords t) ((dats m 0 c).after 7 t) = _
  rw [after7]
  refine funext_ix2 (n0 := 128) (n1 := 1024) _ _ fun p j => ?_
  rw [out7_read c t (Cert.Lstm.cNew (inputs m c)) p j (row t.val p) (row_val t.val t.isLt p)]
  exact cOut_at m c t h7 p j

/-- The hidden-state array after the run. -/
theorem final6 (c : Dev nD) : (dats m 0 c).arrAt 6 cfg0.N = (Cert.Lstm.hNew (inputs m c) : Buf (Elt Ideal) ((cfg0.win 6).arr.view.loc (c.tc : Thread nD τ))) :=
  (dats m 0 c).arrAt_eq_of_cover 6 _ (fun t hf => flushed6_eq m c t hf) (out6_cover c)

/-- The cell-state array after the run. -/
theorem final7 (c : Dev nD) : (dats m 0 c).arrAt 7 cfg0.N = (Cert.Lstm.cNew (inputs m c) : Buf (Elt Ideal) ((cfg0.win 7).arr.view.loc (c.tc : Thread nD τ))) :=
  (dats m 0 c).arrAt_eq_of_cover 7 _ (fun t hf => flushed7_eq m c t hf) (out7_cover c)

/-- THE KERNEL'S RUN, READ: every weakly fair execution terminates with the two results at the specification's arrays
    of the argument arrays, and the arguments unchanged. -/
theorem run_values : θ_run defs (onTc (τ := τ) (main (F := Ideal))) ⟨m, fun _ => 0, ρ⟩ (fun r => ∀ c : Dev nD,
      r.2.mem ((c.tc : Thread nD τ).loc main_v6_0) = (Cert.Lstm.hNew (inputs m c) : Buf (Elt Ideal) ((c.tc : Thread nD τ).loc main_v6_0))
      ∧ r.2.mem ((c.tc : Thread nD τ).loc main_v6_1) = (Cert.Lstm.cNew (inputs m c) : Buf (Elt Ideal) ((c.tc : Thread nD τ).loc main_v6_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 6).trans (final6 m c), ((h c).1 7).trans (final7 m c),
    ((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 5).trans (((dats m 0 c).arrAt_in 5 rfl _).trans ((A_eq m c 5).trans (V_arg2 m c))),
    ((h c).2 main_arg3 (by decide)).trans (V_arg3 m c),
    ((h c).2 main_arg4 (by decide)).trans (V_arg4 m c),
    ((h c).2 main_arg5 (by decide)).trans (V_arg5 m c),
    ((h c).2 main_arg6 (by decide)).trans (V_arg6 m c),
    ((h c).2 main_arg7 (by decide)).trans (V_arg7 m c),
    ((h c).2 main_arg8 (by decide)).trans (V_arg8 m c),
    ((h c).2 main_arg9 (by decide)).trans (V_arg9 m c),
    ((h c).2 main_arg10 (by decide)).trans (V_arg10 m c),
    ((h c).2 main_arg11 (by decide)).trans (V_arg11 m c),
    ((h c).2 main_arg12 (by decide)).trans (V_arg12 m c),
    ((h c).2 main_arg13 (by decide)).trans (V_arg13 m c),
    ((h c).2 main_arg14 (by decide)).trans (V_arg14 m c),
    ((h c).2 main_arg15 (by decide)).trans (V_arg15 m c),
    ((h c).2 main_arg16 (by decide)).trans (V_arg16 m c),
    ((h c).2 main_arg17 (by decide)).trans (V_arg17 m c),
    ((h c).2 main_arg18 (by decide)).trans (V_arg18 m c)⟩) (run_main m ρ)

end Cert.KernelIdeal.Hand

end
-- ==== Proof.RefIsSpec.lean ====
/-
  The reference program computes the specification.  Its two results, read off its run one operation at a time, are
  the new hidden state and the new cell state of `Cert.Lstm` at the reference's own argument arrays: the four
  concatenations put gate `q`'s weights in rows `1024·q …` of the stacked matrices, the transposes and the two
  `dot_general`s are the contractions over the 1024 features, the two broadcast biases are added from the left, the
  four column slices pick the gates, and `1 / (1 + exp (-x))` is the logistic function.
-/
import proofs.«120958_j68848325755666_1_alg».proof.Proof.Gen.ReferenceIdeal.Run
import proofs.«120958_j68848325755666_1_alg».proof.Proof.Gen.ReferenceIdeal.Read
import proofs.«120958_j68848325755666_1_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.Read
open scoped BigOperators

/-! ## A stack of four arrays read at a row

Four `1024 × 1024` matrices (four vectors of length `1024`) joined along the first axis: row `1024·q + j` of the stack is
row `j` of piece `q`. -/

section Stack
variable {α : Type}

theorem stack2_0 (y0 y1 y2 y3 : S1024x1024.Idx → α)
    (hc : Shape.Concatenates [S1024x1024, S1024x1024, S1024x1024, S1024x1024] S4096x1024 0) (j d : Fin 1024)
    (h : j.val < 4096) :
    concatenate S4096x1024 0 [⟨S1024x1024, y0⟩, ⟨S1024x1024, y1⟩, ⟨S1024x1024, y2⟩, ⟨S1024x1024, y3⟩] hc (ix2 ⟨j.val, h⟩ d)
      = y0 (ix2 j d) := by
  refine concatenate_apply_piece (0 : Fin S4096x1024.rank) _ _ _ 0 (by simp) S1024x1024 y0 rfl rfl 0 rfl (ix2 j d) ?_ ?_
  · intro b hb
    match b with
    | ⟨0, _⟩ => exact absurd rfl hb
    | ⟨1, _⟩ => rfl
  · exact Nat.zero_add _

theorem stack2_1 (y0 y1 y2 y3 : S1024x1024.Idx → α)
    (hc : Shape.Concatenates [S1024x1024, S1024x1024, S1024x1024, S1024x1024] S4096x1024 0) (j d : Fin 1024)
    (h : 1024 + j.val < 4096) :
    concatenate S4096x1024 0 [⟨S1024x1024, y0⟩, ⟨S1024x1024, y1⟩, ⟨S1024x1024, y2⟩, ⟨S1024x1024, y3⟩] hc (ix2 ⟨1024 + j.val, h⟩ d)
      = y1 (ix2 j d) := by
  refine concatenate_apply_piece (0 : Fin S4096x1024.rank) _ _ _ 1 (by simp) S1024x1024 y1 rfl rfl 1024 rfl (ix2 j d) ?_ rfl
  intro b hb
  match b with
  | ⟨0, _⟩ => exact absurd rfl hb
  | ⟨1, _⟩ => rfl

theorem stack2_2 (y0 y1 y2 y3 : S1024x1024.Idx → α)
    (hc : Shape.Concatenates [S1024x1024, S1024x1024, S1024x1024, S1024x1024] S4096x1024 0) (j d : Fin 1024)
    (h : 2048 + j.val < 4096) :
    concatenate S4096x1024 0 [⟨S1024x1024, y0⟩, ⟨S1024x1024, y1⟩, ⟨S1024x1024, y2⟩, ⟨S1024x1024, y3⟩] hc (ix2 ⟨2048 + j.val, h⟩ d)
      = y2 (ix2 j d) := by
  refine concatenate_apply_piece (0 : Fin S4096x1024.rank) _ _ _ 2 (by simp) S1024x1024 y2 rfl rfl 2048 rfl (ix2 j d) ?_ rfl
  intro b hb
  match b with
  | ⟨0, _⟩ => exact absurd rfl hb
  | ⟨1, _⟩ => rfl

theorem stack2_3 (y0 y1 y2 y3 : S1024x1024.Idx → α)
    (hc : Shape.Concatenates [S1024x1024, S1024x1024, S1024x1024, S1024x1024] S4096x1024 0) (j d : Fin 1024)
    (h : 3072 + j.val < 4096) :
    concatenate S4096x1024 0 [⟨S1024x1024, y0⟩, ⟨S1024x1024, y1⟩, ⟨S1024x1024, y2⟩, ⟨S1024x1024, y3⟩] hc (ix2 ⟨3072 + j.val, h⟩ d)
      = y3 (ix2 j d) := by
  refine concatenate_apply_piece (0 : Fin S4096x1024.rank) _ _ _ 3 (by simp) S1024x1024 y3 rfl rfl 3072 rfl (ix2 j d) ?_ rfl
  intro b hb
  match b with
  | ⟨0, _⟩ => exact absurd rfl hb
  | ⟨1, _⟩ => rfl

theorem stack1_0 (y0 y1 y2 y3 : S1024.Idx → α)
    (hc : Shape.Concatenates [S1024, S1024, S1024, S1024] S4096 0) (j : Fin 1024) (h : j.val < 4096) :
    concatenate S4096 0 [⟨S1024, y0⟩, ⟨S1024, y1⟩, ⟨S1024, y2⟩, ⟨S1024, y3⟩] hc (ix1 ⟨j.val, h⟩) = y0 (ix1 j) := by
  refine concatenate_apply_piece (0 : Fin S4096.rank) _ _ _ 0 (by simp) S1024 y0 rfl rfl 0 rfl (ix1 j) ?_ ?_
  · intro b hb
    match b with
    | ⟨0, _⟩ => exact absurd rfl hb
  · exact Nat.zero_add _

theorem stack1_1 (y0 y1 y2 y3 : S1024.Idx → α)
    (hc : Shape.Concatenates [S1024, S1024, S1024, S1024] S4096 0) (j : Fin 1024) (h : 1024 + j.val < 4096) :
    concatenate S4096 0 [⟨S1024, y0⟩, ⟨S1024, y1⟩, ⟨S1024, y2⟩, ⟨S1024, y3⟩] hc (ix1 ⟨1024 + j.val, h⟩) = y1 (ix1 j) := by
  refine concatenate_apply_piece (0 : Fin S4096.rank) _ _ _ 1 (by simp) S1024 y1 rfl rfl 1024 rfl (ix1 j) ?_ rfl
  intro b hb
  match b with
  | ⟨0, _⟩ => exact absurd rfl hb

theorem stack1_2 (y0 y1 y2 y3 : S1024.Idx → α)
    (hc : Shape.Concatenates [S1024, S1024, S1024, S1024] S4096 0) (j : Fin 1024) (h : 2048 + j.val < 4096) :
    concatenate S4096 0 [⟨S1024, y0⟩, ⟨S1024, y1⟩, ⟨S1024, y2⟩, ⟨S1024, y3⟩] hc (ix1 ⟨2048 + j.val, h⟩) = y2 (ix1 j) := by
  refine concatenate_apply_piece (0 : Fin S4096.rank) _ _ _ 2 (by simp) S1024 y2 rfl rfl 2048 rfl (ix1 j) ?_ rfl
  intro b hb
  match b with
  | ⟨0, _⟩ => exact absurd rfl hb

theorem stack1_3 (y0 y1 y2 y3 : S1024.Idx → α)
    (hc : Shape.Concatenates [S1024, S1024, S1024, S1024] S4096 0) (j : Fin 1024) (h : 3072 + j.val < 4096) :
    concatenate S4096 0 [⟨S1024, y0⟩, ⟨S1024, y1⟩, ⟨S1024, y2⟩, ⟨S1024, y3⟩] hc (ix1 ⟨3072 + j.val, h⟩) = y3 (ix1 j) := by
  refine concatenate_apply_piece (0 : Fin S4096.rank) _ _ _ 3 (by simp) S1024 y3 rfl rfl 3072 rfl (ix1 j) ?_ rfl
  intro b hb
  match b with
  | ⟨0, _⟩ => exact absurd rfl hb

end Stack

/-! ## The printed index maps on coordinates -/

theorem lidx5_ix2 (r k : Fin 4096) (d : Fin 1024) : lidx_main_v5 (ix2 r k) d = ix2 r d :=
  funext fun a => Fin.ext (by match a with | ⟨0, _⟩ => rfl | ⟨1, _⟩ => rfl)
theorem ridx5_ix2 (r k : Fin 4096) (d : Fin 1024) : idx_main_v4 (ridx_main_v5 (ix2 r k) d) = ix2 k d :=
  funext fun a => Fin.ext (by match a with | ⟨0, _⟩ => rfl | ⟨1, _⟩ => rfl)
theorem lidx7_ix2 (r k : Fin 4096) (d : Fin 1024) : lidx_main_v7 (ix2 r k) d = ix2 r d :=
  funext fun a => Fin.ext (by match a with | ⟨0, _⟩ => rfl | ⟨1, _⟩ => rfl)
theorem ridx7_ix2 (r k : Fin 4096) (d : Fin 1024) : idx_main_v6 (ridx_main_v7 (ix2 r k) d) = ix2 k d :=
  funext fun a => Fin.ext (by match a with | ⟨0, _⟩ => rfl | ⟨1, _⟩ => rfl)
theorem idx9_ix2 (r k : Fin 4096) : idx_main_v9 (idx_main_v10 (ix2 r k)) = ix1 k :=
  funext fun a => Fin.ext (by match a with | ⟨0, _⟩ => rfl)
theorem idx12_ix2 (r k : Fin 4096) : idx_main_v12 (idx_main_v13 (ix2 r k)) = ix1 k :=
  funext fun a => Fin.ext (by match a with | ⟨0, _⟩ => rfl)

/-! ## One gate's pre-activation

The sum of the two products and the two broadcast biases at row `r`, column `k` of the `4096 × 4096` array, and then at
the four column ranges the slices cut: column `1024·q + j` reads row `1024·q + j` of each stack, which is row `j` of
gate `q`'s array. -/

section Sum
variable (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))

theorem v14_at (r : Fin 4096) (k : Fin 4096) :
    val_main_v14 (F := Ideal) x0 x1 x3 x4 x5 x6 x7 x8 x9 x10 x11 x12 x13 x14 x15 x16 x17 x18 (ix2 r k)
      = (((∑ d : Fin 1024, x0 (ix2 r d) * val_main_v0 (F := Ideal) x3 x5 x7 x9 (ix2 k d))
          + (∑ d : Fin 1024, x1 (ix2 r d) * val_main_v1 (F := Ideal) x11 x13 x15 x17 (ix2 k d)))
          + val_main_v2 (F := Ideal) x4 x6 x8 x10 (ix1 k)) + val_main_v3 (F := Ideal) x12 x14 x16 x18 (ix1 k) := by
  rw [val_main_v14_apply, val_main_v11_apply, val_main_v8_apply, val_main_v5_apply, val_main_v7_apply,
    val_main_v10_apply, val_main_v9_apply, val_main_v13_apply, val_main_v12_apply]
  simp only [val_main_v4_apply, val_main_v6_apply, lidx5_ix2, ridx5_ix2, lidx7_ix2, ridx7_ix2, idx9_ix2, idx12_ix2,
    Ideal.addf_def]

theorem pre_i (r : Fin 4096) (j : Fin 1024) :
    val_main_v14 (F := Ideal) x0 x1 x3 x4 x5 x6 x7 x8 x9 x10 x11 x12 x13 x14 x15 x16 x17 x18 (idx_main_v15 (ix2 r j)) = Cert.Lstm.pre x0 x1 x3 x11 x4 x12 r j := by
  rw [show idx_main_v15 (ix2 r j) = ix2 r ⟨j.val, by have := j.isLt; omega⟩ from
    funext fun a => Fin.ext (by match a with | ⟨0, _⟩ => rfl | ⟨1, _⟩ => rfl), v14_at]
  unfold val_main_v0 val_main_v1 val_main_v2 val_main_v3 Cert.Lstm.pre
  simp only [stack2_0, stack1_0]

theorem pre_f (r : Fin 4096) (j : Fin 1024) :
    val_main_v14 (F := Ideal) x0 x1 x3 x4 x5 x6 x7 x8 x9 x10 x11 x12 x13 x14 x15 x16 x17 x18 (idx_main_v22 (ix2 r j)) = Cert.Lstm.pre x0 x1 x5 x13 x6 x14 r j := by
  rw [show idx_main_v22 (ix2 r j) = ix2 r ⟨1024 + j.val, by have := j.isLt; omega⟩ from
    funext fun a => Fin.ext (by match a with | ⟨0, _⟩ => rfl | ⟨1, _⟩ => rfl), v14_at]
  unfold val_main_v0 val_main_v1 val_main_v2 val_main_v3 Cert.Lstm.pre
  simp only [stack2_1, stack1_1]

theorem pre_g (r : Fin 4096) (j : Fin 1024) :
    val_main_v14 (F := Ideal) x0 x1 x3 x4 x5 x6 x7 x8 x9 x10 x11 x12 x13 x14 x15 x16 x17 x18 (idx_main_v29 (ix2 r j)) = Cert.Lstm.pre x0 x1 x7 x15 x8 x16 r j := by
  rw [show idx_main_v29 (ix2 r j) = ix2 r ⟨2048 + j.val, by have := j.isLt; omega⟩ from
    funext fun a => Fin.ext (by match a with | ⟨0, _⟩ => rfl | ⟨1, _⟩ => rfl), v14_at]
  unfold val_main_v0 val_main_v1 val_main_v2 val_main_v3 Cert.Lstm.pre
  simp only [stack2_2, stack1_2]

theorem pre_o (r : Fin 4096) (j : Fin 1024) :
    val_main_v14 (F := Ideal) x0 x1 x3 x4 x5 x6 x7 x8 x9 x10 x11 x12 x13 x14 x15 x16 x17 x18 (idx_main_v31 (ix2 r j)) = Cert.Lstm.pre x0 x1 x9 x17 x10 x18 r j := by
  rw [show idx_main_v31 (ix2 r j) = ix2 r ⟨3072 + j.val, by have := j.isLt; omega⟩ from
    funext fun a => Fin.ext (by match a with | ⟨0, _⟩ => rfl | ⟨1, _⟩ => rfl), v14_at]
  unfold val_main_v0 val_main_v1 val_main_v2 val_main_v3 Cert.Lstm.pre
  simp only [stack2_3, stack1_3]

end Sum

/-! ## The two results at an index -/

section Results
variable (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (x2 : (⟨S4096x1024, .f32⟩ : BufTy).Contents (Elt Ideal))

/-- The cell state at `(r, j)`: `σ(pre_f)·c + σ(pre_i)·tanh(pre_g)`, with `σ` printed as `1 / (1 + exp (-x))`. -/
theorem v40_at (r : Fin 4096) (j : Fin 1024) :
    val_main_v40 (F := Ideal) x0 x1 x2 x3 x4 x5 x6 x7 x8 x9 x10 x11 x12 x13 x14 x15 x16 x17 x18 (ix2 r j)
      = Ideal.logistic (Cert.Lstm.pre x0 x1 x5 x13 x6 x14 r j) * x2 (ix2 r j)
        + Ideal.logistic (Cert.Lstm.pre x0 x1 x3 x11 x4 x12 r j) * Ideal.tanh (Cert.Lstm.pre x0 x1 x7 x15 x8 x16 r j) := by
  rw [val_main_v40_apply, val_main_v38_apply, val_main_v28_apply, val_main_v27_apply, val_main_cst_2_apply,
    val_main_v26_apply, val_main_v25_apply, val_main_cst_1_apply, val_main_v24_apply, val_main_v23_apply,
    val_main_v22_apply, pre_f, val_main_v39_apply, val_main_v21_apply, val_main_v20_apply, val_main_cst_0_apply,
    val_main_v19_apply, val_main_v18_apply, val_main_cst_apply, val_main_v17_apply, val_main_v16_apply,
    val_main_v15_apply, pre_i, val_main_v30_apply, val_main_v29_apply, pre_g]
  simp only [Ideal.addf_def, Ideal.mulf_def, Ideal.hostDivf_def, Ideal.hostUnary_exp_def, Ideal.hostUnary_tanh_def,
    Ideal.hostNegf_def, Ideal.negf_def, Ideal.ofBits_def, Ideal.ofBits_one_f32, Ideal.logistic]

/-- The hidden state at `(r, j)`: `σ(pre_o)·tanh` of the cell state. -/
theorem v42_at (r : Fin 4096) (j : Fin 1024) :
    val_main_v42 (F := Ideal) x0 x1 x2 x3 x4 x5 x6 x7 x8 x9 x10 x11 x12 x13 x14 x15 x16 x17 x18 (ix2 r j)
      = Ideal.logistic (Cert.Lstm.pre x0 x1 x9 x17 x10 x18 r j)
        * Ideal.tanh (val_main_v40 (F := Ideal) x0 x1 x2 x3 x4 x5 x6 x7 x8 x9 x10 x11 x12 x13 x14 x15 x16 x17 x18 (ix2 r j)) := by
  rw [val_main_v42_apply, val_main_v37_apply, val_main_v36_apply, val_main_cst_4_apply, val_main_v35_apply,
    val_main_v34_apply, val_main_cst_3_apply, val_main_v33_apply, val_main_v32_apply, val_main_v31_apply, pre_o,
    val_main_v41_apply]
  simp only [Ideal.addf_def, Ideal.mulf_def, Ideal.hostDivf_def, Ideal.hostUnary_exp_def, Ideal.hostUnary_tanh_def,
    Ideal.hostNegf_def, Ideal.negf_def, Ideal.ofBits_def, Ideal.ofBits_one_f32, Ideal.logistic]

end Results

/-! ## The reference's results are the specification -/

/-- The reference's nineteen argument arrays on core `c`, as the specification's record. -/
def inputs (m : (ℓ : Loc nD τ sig) → Buf (Elt Ideal) ℓ) (c : Dev nD) : Cert.Lstm.Inputs where
  x := m ((c.tc : Thread nD τ).loc main_arg0)
  h := m ((c.tc : Thread nD τ).loc main_arg1)
  c := m ((c.tc : Thread nD τ).loc main_arg2)
  Wi := m ((c.tc : Thread nD τ).loc main_arg3)
  bi := m ((c.tc : Thread nD τ).loc main_arg4)
  Wf := m ((c.tc : Thread nD τ).loc main_arg5)
  bf := m ((c.tc : Thread nD τ).loc main_arg6)
  Wg := m ((c.tc : Thread nD τ).loc main_arg7)
  bg := m ((c.tc : Thread nD τ).loc main_arg8)
  Wo := m ((c.tc : Thread nD τ).loc main_arg9)
  bo := m ((c.tc : Thread nD τ).loc main_arg10)
  Ui := m ((c.tc : Thread nD τ).loc main_arg11)
  ubi := m ((c.tc : Thread nD τ).loc main_arg12)
  Uf := m ((c.tc : Thread nD τ).loc main_arg13)
  ubf := m ((c.tc : Thread nD τ).loc main_arg14)
  Ug := m ((c.tc : Thread nD τ).loc main_arg15)
  ubg := m ((c.tc : Thread nD τ).loc main_arg16)
  Uo := m ((c.tc : Thread nD τ).loc main_arg17)
  ubo := m ((c.tc : Thread nD τ).loc main_arg18)

/-- The reference's second result is the new cell state. -/
theorem res_c (m : (ℓ : Loc nD τ sig) → Buf (Elt Ideal) ℓ) (c : Dev nD) :
    Cert.ReferenceIdeal.Value.res_main_v40 (F := Ideal) m c = Cert.Lstm.cNew (inputs m c) := by
  rw [val_main_v40_eq]
  funext i
  obtain ⟨r, j, rfl⟩ : ∃ (r : Fin 4096) (j : Fin 1024), i = ix2 r j := ⟨i 0, i 1, eq_ix2 i⟩
  rw [v40_at]
  rfl

/-- The reference's first result is the new hidden state. -/
theorem res_h (m : (ℓ : Loc nD τ sig) → Buf (Elt Ideal) ℓ) (c : Dev nD) :
    Cert.ReferenceIdeal.Value.res_main_v42 (F := Ideal) m c = Cert.Lstm.hNew (inputs m c) := by
  rw [val_main_v42_eq]
  funext i
  obtain ⟨r, j, rfl⟩ : ∃ (r : Fin 4096) (j : Fin 1024), i = ix2 r j := ⟨i 0, i 1, eq_ix2 i⟩
  rw [v42_at, v40_at]
  rfl

end Cert.ReferenceIdeal.RefValue

end
-- ==== Proof.lean ====
/-
  The certificate.  The kernel is an LSTM cell: a 32 × 8 grid whose reduction axis accumulates, tile by tile, the
  contraction of x with the stacked input-to-hidden weights and then of h with the stacked hidden-to-hidden weights, and
  at the last reduction step adds the summed biases, splits the four gates, and stores the new hidden and cell states.
  The reference is the same cell in plain array operations.  On the extended reals both compute one function of the
  nineteen argument arrays (`Cert.Lstm.hNew`, `Cert.Lstm.cNew`): the reference by reading its run one operation at a
  time; the kernel because its accumulator ends at the two whole contractions (sums regrouped by associativity and
  commutativity only, so the precondition is never opened), its bias row is the two bias vectors added, and the logistic
  function and tanh are the same functions on both sides.  The three frames: the kernel's, at the word level and at the
  ideal level, by one proof generic in the float instance; the reference's from its run.  The idealization rewrote no
  operation, so `preserves` has nothing to state.
-/
import proofs.«120958_j68848325755666_1_alg».proof.Defs
import proofs.«120958_j68848325755666_1_alg».proof.Proof.Gen.Kernel
import proofs.«120958_j68848325755666_1_alg».proof.Proof.Gen.KernelIdeal
import proofs.«120958_j68848325755666_1_alg».proof.Proof.Gen.ReferenceIdeal
import proofs.«120958_j68848325755666_1_alg».proof.Proof.Gen.Pre_finite_inputs
import proofs.«120958_j68848325755666_1_alg».proof.Proof.Gen.ReferenceIdeal.Run
import proofs.«120958_j68848325755666_1_alg».proof.Proof.K.Frame
import proofs.«120958_j68848325755666_1_alg».proof.Proof.KI.Final
import proofs.«120958_j68848325755666_1_alg».proof.Proof.RefIsSpec
import Idealize.ShloMosaic.Adequacy
import Idealize.ShloMosaic.Init

noncomputable section

namespace Cert.Proof

open Idealize.ShloMosaic Idealize.ShloMosaic.TcCoe Idealize.SL.Sem

/-- Memories agreeing on the arguments give the two programs the same argument record. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RefValue.inputs m' c = Cert.KernelIdeal.Hand.inputs m c := by
  obtain ⟨h0, h1, h2, h3, h4, h5, h6, h7, h8, h9, h10, h11, h12, h13, h14, h15, h16, h17, h18⟩ := h
  unfold Cert.ReferenceIdeal.RefValue.inputs Cert.KernelIdeal.Hand.inputs
  rw [h0, h1, h2, h3, h4, h5, h6, h7, h8, h9, h10, h11, h12, h13, h14, h15, h16, h17, h18]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs, run from memories agreeing on the arguments, end with the specification's two arrays. -/
theorem algebraic : Cert.algebraic_KernelIdeal_ReferenceIdeal := by
  intro m ρ m' ρ' _ hagree
  refine ⟨fun c => Cert.Lstm.hNew (Cert.KernelIdeal.Hand.inputs m c), fun c => Cert.Lstm.cNew (Cert.KernelIdeal.Hand.inputs m c),
    Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_h, inputs_agree m m' c (hagree c)]
  · rw [Cert.ReferenceIdeal.RefValue.res_c, inputs_agree m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
